-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S128x1 : Shape := ⟨2, ![128, 1]⟩
abbrev S204800x128 : Shape := ⟨2, ![204800, 128]⟩
abbrev S204800x1 : Shape := ⟨2, ![204800, 1]⟩
abbrev S128 : Shape := ⟨1, ![128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S204800x128 : S_.BroadcastsInDim S204800x128 (![] : Fin 0 → Fin S204800x128.rank)
  reducesTo_S204800x128_S_d0_1 : S204800x128.ReducesTo [0, 1] S_
  bcast_S_S204800x1 : S_.BroadcastsInDim S204800x1 (![] : Fin 0 → Fin S204800x1.rank)
  reducesTo_S204800x1_S_d0_1 : S204800x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S204800x1 .f32) (main_arg5 : IVec S128 32) (main_v13 : IVec S_ 1) (main_v16 : IVec S204800x128 1) : IVec S_ 1 :=
  let main_c_5 : IVec S_ 1 := constantI S_ 1 1#1
  let main_v17 : IVec S_ 1 := (fun x v => Host.reduce IntOp.andi x v reducesTo_S204800x128_S_d0_1 h_S_) main_v16 main_c_5
  let main_v18 : IVec S_ 1 := andi main_v13 main_v17
  let main_v19 : FVec F S204800x1 .f32 := Host.absf main_arg4
  let main_cst_6 : FVec F S_ .f32 := constant S_ .f32 0x7F800000#32
  let main_v20 : FVec F S204800x1 .f32 := broadcastInDim S204800x1 ![] bcast_S_S204800x1 main_cst_6
  let main_v21 : IVec S204800x1 1 := cmpf .olt main_v19 main_v20
  let main_c_7 : IVec S_ 1 := constantI S_ 1 1#1
  let main_v22 : IVec S_ 1 := (fun x v => Host.reduce IntOp.andi x v reducesTo_S204800x1_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 32 := constantI S_ 32 50#32
  let main_v26 : IVec S128 32 := broadcastInDim S128 ![] bcast_S_S128 main_c_9
  let main_v27 : IVec S128 1 := cmpi .slt main_arg5 main_v26
  let main_v28 : IVec S128 1 := andi main_v25 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v23 main_v29
  main_v30

def fn {F : FTy → Type} [FloatOps F] (main_arg0 : FVec F S128x128 .f32) (main_arg1 : FVec F S128x128 .f32) (main_arg2 : FVec F S128x1 .f32) (main_arg3 : FVec F S204800x128 .f32) (main_arg4 : FVec F S204800x1 .f32) (main_arg5 : IVec S128 32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S204800x128 .f32 := Host.absf main_arg3
  let main_cst_4 : FVec F S_ .f32 := constant S_ .f32 0x7F800000#32
  let main_v15 : FVec F S204800x128 .f32 := broadcastInDim S204800x128 ![] bcast_S_S204800x128 main_cst_4
  let main_v16 : IVec S204800x128 1 := cmpf .olt main_v14 main_v15
  fn_part1 (F := F) main_arg4 main_arg5 main_v13 main_v16
-- ==== Kernel.lean ====
abbrev S128x128 : Shape := ⟨2, ![128, 128]⟩
abbrev S128x1 : Shape := ⟨2, ![128, 1]⟩
abbrev S204800x128 : Shape := ⟨2, ![204800, 128]⟩
abbrev S204800x1 : Shape := ⟨2, ![204800, 1]⟩
abbrev S128 : Shape := ⟨1, ![128]⟩
abbrev S_ : Shape := ⟨0, ![]⟩
abbrev S2x128x1 : Shape := ⟨3, ![2, 128, 1]⟩
abbrev S2x128x4096 : Shape := ⟨3, ![2, 128, 4096]⟩
abbrev S4096x128 : Shape := ⟨2, ![4096, 128]⟩
abbrev S1x128x1 : Shape := ⟨3, ![1, 128, 1]⟩
abbrev S1x128x4096 : Shape := ⟨3, ![1, 128, 4096]⟩
abbrev S128x4096 : Shape := ⟨2, ![128, 4096]⟩
abbrev S50x4096 : Shape := ⟨2, ![50, 4096]⟩

abbrev nBuf : Space → Nat
  | .hbm => 82
  | .vmem => 8
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x1, .f32⟩
  | .hbm, ⟨3, _⟩ => ⟨S204800x128, .f32⟩
  | .hbm, ⟨4, _⟩ => ⟨S204800x1, .f32⟩
  | .hbm, ⟨5, _⟩ => ⟨S128, .i32⟩
  | .hbm, ⟨6, _⟩ => ⟨S128x128, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S128x1, .i32⟩
  | .hbm, ⟨31, _⟩ => ⟨S2x128x1, .f32⟩
  | .hbm, ⟨32, _⟩ => ⟨S2x128x4096, .f32⟩
  | .hbm, ⟨33, _⟩ => ⟨S1x128x1, .f32⟩
  | .hbm, ⟨34, _⟩ => ⟨S128x1, .f32⟩
  | .hbm, ⟨35, _⟩ => ⟨S128x1, .f32⟩
  | .hbm, ⟨36, _⟩ => ⟨S1x128x1, .f32⟩
  | .hbm, ⟨37, _⟩ => ⟨S128x1, .f32⟩
  | .hbm, ⟨38, _⟩ => ⟨S128x1, .f32⟩
  | .hbm, ⟨39, _⟩ => ⟨S1x128x4096, .f32⟩
  | .hbm, ⟨40, _⟩ => ⟨S128x4096, .f32⟩
  | .hbm, ⟨41, _⟩ => ⟨S1x128x4096, .f32⟩
  | .hbm, ⟨42, _⟩ => ⟨S128x4096, .f32⟩
  | .hbm, ⟨43, _⟩ => ⟨S128x4096, .f32⟩
  | .hbm, ⟨44, _⟩ => ⟨S50x4096, .f32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S128x4096, .f32⟩
  | .hbm, ⟨54, _⟩ => ⟨S128x4096, .f32⟩
  | .hbm, ⟨55, _⟩ => ⟨S128x4096, .f32⟩
  | .hbm, ⟨56, _⟩ => ⟨S_, .f32⟩
  | .hbm, ⟨57, _⟩ => ⟨S128x4096, .f32⟩
  | .hbm, ⟨58, _⟩ => ⟨S128x4096, .f32⟩
  | .hbm, ⟨59, _⟩ => ⟨S128x4096, .f32⟩
  | .hbm, ⟨60, _⟩ => ⟨S128x4096, .f32⟩
  | .hbm, ⟨61, _⟩ => ⟨S128x4096, .f32⟩
  | .hbm, ⟨62, _⟩ => ⟨S128x4096, .f32⟩
  | .hbm, ⟨63, _⟩ => ⟨S128x4096, .f32⟩
  | .hbm, ⟨64, _⟩ => ⟨S_, .f32⟩
  | .hbm, ⟨65, _⟩ => ⟨S128, .f32⟩
  | .hbm, ⟨66, _⟩ => ⟨S128x1, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S128x1, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S_, .f32⟩
  | .hbm, ⟨76, _⟩ => ⟨S128x1, .f32⟩
  | .hbm, ⟨77, _⟩ => ⟨S128x1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S128x128, .f32⟩
  | .local _ .vmem, ⟨1, _⟩ => ⟨S128x1, .i32⟩
  | .local _ .vmem, ⟨2, _⟩ => ⟨S4096x128, .f32⟩
  | .local _ .vmem, ⟨3, _⟩ => ⟨S4096x128, .f32⟩
  | .local _ .vmem, ⟨4, _⟩ => ⟨S1x128x1, .f32⟩
  | .local _ .vmem, ⟨5, _⟩ => ⟨S1x128x1, .f32⟩
  | .local _ .vmem, ⟨6, _⟩ => ⟨S1x128x4096, .f32⟩
  | .local _ .vmem, ⟨7, _⟩ => ⟨S1x128x4096, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  transposes_S4096x128_p1_0_S128x4096 : S4096x128.Transposes [1, 0] S128x4096
  reduces_S128x4096_S128 : S128x4096.Reduces [1] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  natLt_1_32 : 1 < 32
  broadcasts_S128x1_S128x4096 : S128x1.Broadcasts S128x4096
  slices_S2x128x1_S1x128x1_0_0_0 : S2x128x1.Slices ![0, 0, 0] S1x128x1
  slices_S2x128x1_S1x128x1_1_0_0 : S2x128x1.Slices ![1, 0, 0] S1x128x1
  slices_S2x128x4096_S1x128x4096_0_0_0 : S2x128x4096.Slices ![0, 0, 0] S1x128x4096
  slices_S2x128x4096_S1x128x4096_1_0_0 : S2x128x4096.Slices ![1, 0, 0] S1x128x4096
  shapeCasts_S204800x1_S50x4096 : S204800x1.ShapeCasts S50x4096
  bcast_S_S128 : S_.BroadcastsInDim S128 (![] : Fin 0 → Fin S128.rank)
  bcast_S128x1_S128x4096_0_1 : S128x1.BroadcastsInDim S128x4096 (![0, 1] : Fin 2 → Fin S128x4096.rank)
  bcast_S_S128x4096 : S_.BroadcastsInDim S128x4096 (![] : Fin 0 → Fin S128x4096.rank)
  reducesTo_S128x4096_S128_d1 : S128x4096.ReducesTo [1] S128
  reducesTo_S128x1_S_d0_1 : S128x1.ReducesTo [0, 1] S_
  dot_S128x128_S128x4096_S128x4096_1_0_0_1_n_n_wf : DotDims.WF S128x128 S128x4096 S128x4096 [1] [0] [0] [1] [] []
  gather_S50x4096_S128x1_S128x4096_1_0_n_n_0_1_14096_wf : GatherDims.WF S50x4096 S128x1 S128x4096 [1] [0] [] [0] [] 1 ![1, 4096]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .i32 = 32 ∨ (Rect.block (s := S128x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S204800x128.size a
  hwx0_2 : ∀ i : grid0.Coords, EltTy.bits .f32 = 32 ∨ (Rect.block (s := S204800x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S2x128x4096.size a
  hwx0_4 : ∀ i : grid0.Coords, EltTy.bits .f32 = 32 ∨ (Rect.block (s := S2x128x4096) S1x128x4096.size (cc0_transform_4 i) (hinb0_4 i)).WholeWords (EltTy.packing .f32)

variable [Facts₀]

def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def gather_S50x4096_S128x1_S128x4096_1_0_n_n_0_1_14096 : GatherDims S50x4096 S128x1 S128x4096 where
  offsetDims := [1]
  collapsedSliceDims := [0]
  operandBatchingDims := []
  startIndicesBatchingDims := []
  startIndexMap := [0]
  indexVectorDim := 1
  sliceSizes := ![1, 4096]
  wf := gather_S50x4096_S128x1_S128x4096_1_0_n_n_0_1_14096_wf

abbrev win0_0 : Pipeline.Window sig grid0 :=
  Pipeline.Window.ofSpec (Memref.whole main_v7) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x128 : Shape := ⟨2, ![128, 128]⟩
abbrev S128x1 : Shape := ⟨2, ![128, 1]⟩
abbrev S204800x128 : Shape := ⟨2, ![204800, 128]⟩
abbrev S204800x1 : Shape := ⟨2, ![204800, 1]⟩
abbrev S128 : Shape := ⟨1, ![128]⟩
abbrev S_ : Shape := ⟨0, ![]⟩
abbrev S204800 : Shape := ⟨1, ![204800]⟩
abbrev S128x204800 : Shape := ⟨2, ![128, 204800]⟩
abbrev S1x204800 : Shape := ⟨2, ![1, 204800]⟩

abbrev nBuf : Space → Nat
  | .hbm => 97
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x1, .f32⟩
  | .hbm, ⟨3, _⟩ => ⟨S204800x128, .f32⟩
  | .hbm, ⟨4, _⟩ => ⟨S204800x1, .f32⟩
  | .hbm, ⟨5, _⟩ => ⟨S128, .i32⟩
  | .hbm, ⟨6, _⟩ => ⟨S128x128, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S204800, .f32⟩
  | .hbm, ⟨31, _⟩ => ⟨S128x204800, .f32⟩
  | .hbm, ⟨32, _⟩ => ⟨S128x204800, .f32⟩
  | .hbm, ⟨33, _⟩ => ⟨S_, .f32⟩
  | .hbm, ⟨34, _⟩ => ⟨S128x204800, .f32⟩
  | .hbm, ⟨35, _⟩ => ⟨S128x204800, .f32⟩
  | .hbm, ⟨36, _⟩ => ⟨S128x204800, .f32⟩
  | .hbm, ⟨37, _⟩ => ⟨S204800, .i32⟩
  | .hbm, ⟨38, _⟩ => ⟨S_, .i32⟩
  | .hbm, ⟨39, _⟩ => ⟨S_, .i32⟩
  | .hbm, ⟨40, _⟩ => ⟨S204800, .i32⟩
  | .hbm, ⟨41, _⟩ => ⟨S204800, .i32⟩
  | .hbm, ⟨42, _⟩ => ⟨S204800, .i32⟩
  | .hbm, ⟨43, _⟩ => ⟨S_, .i32⟩
  | .hbm, ⟨44, _⟩ => ⟨S204800, .i32⟩
  | .hbm, ⟨45, _⟩ => ⟨S204800, .i1⟩
  | .hbm, ⟨46, _⟩ => ⟨S204800, .i32⟩
  | .hbm, ⟨47, _⟩ => ⟨S204800, .i32⟩
  | .hbm, ⟨48, _⟩ => ⟨S_, .i32⟩
  | .hbm, ⟨49, _⟩ => ⟨S204800, .i32⟩
  | .hbm, ⟨50, _⟩ => ⟨S204800, .i1⟩
  | .hbm, ⟨51, _⟩ => ⟨S204800, .i1⟩
  | .hbm, ⟨52, _⟩ => ⟨S_, .i32⟩
  | .hbm, ⟨53, _⟩ => ⟨S204800, .i32⟩
  | .hbm, ⟨54, _⟩ => ⟨S204800, .i32⟩
  | .hbm, ⟨55, _⟩ => ⟨S204800, .i32⟩
  | .hbm, ⟨56, _⟩ => ⟨S1x204800, .i32⟩
  | .hbm, ⟨57, _⟩ => ⟨S128x1, .i32⟩
  | .hbm, ⟨58, _⟩ => ⟨S128x204800, .i32⟩
  | .hbm, ⟨59, _⟩ => ⟨S128x204800, .i32⟩
  | .hbm, ⟨60, _⟩ => ⟨S128x204800, .i1⟩
  | .hbm, ⟨61, _⟩ => ⟨S128x204800, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128x1, .f32⟩
  | .hbm, ⟨66, _⟩ => ⟨S128x204800, .f32⟩
  | .hbm, ⟨67, _⟩ => ⟨S128x204800, .f32⟩
  | .hbm, ⟨68, _⟩ => ⟨S_, .f32⟩
  | .hbm, ⟨69, _⟩ => ⟨S128x204800, .f32⟩
  | .hbm, ⟨70, _⟩ => ⟨S128x204800, .f32⟩
  | .hbm, ⟨71, _⟩ => ⟨S128x204800, .f32⟩
  | .hbm, ⟨72, _⟩ => ⟨S128x204800, .f32⟩
  | .hbm, ⟨73, _⟩ => ⟨S128x1, .f32⟩
  | .hbm, ⟨74, _⟩ => ⟨S1x204800, .f32⟩
  | .hbm, ⟨75, _⟩ => ⟨S128x204800, .f32⟩
  | .hbm, ⟨76, _⟩ => ⟨S128x204800, .f32⟩
  | .hbm, ⟨77, _⟩ => ⟨S128x204800, .f32⟩
  | .hbm, ⟨78, _⟩ => ⟨S128x204800, .f32⟩
  | .hbm, ⟨79, _⟩ => ⟨S128x204800, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩

abbrev nD : Nat := 1
abbrev τ : Topo := Topo.v7x

variable {F : FTy → Type} [FloatOps F]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  shapeCasts_S128x1_S128 : S128x1.ShapeCasts S128
  shapeCasts_S204800x1_S204800 : S204800x1.ShapeCasts S204800
  transposes_S204800x128_S128x204800_1_0 : S204800x128.Transposes [1, 0] S128x204800
  bcast_S_S128x204800 : S_.BroadcastsInDim S128x204800 (![] : Fin 0 → Fin S128x204800.rank)
  bcast_S_S204800 : S_.BroadcastsInDim S204800 (![] : Fin 0 → Fin S204800.rank)
  bcast_S204800_S1x204800_1 : S204800.BroadcastsInDim S1x204800 (![1] : Fin 1 → Fin S1x204800.rank)
  bcast_S1x204800_S128x204800_0_1 : S1x204800.BroadcastsInDim S128x204800 (![0, 1] : Fin 2 → Fin S128x204800.rank)
  bcast_S128x1_S128x204800_0_1 : S128x1.BroadcastsInDim S128x204800 (![0, 1] : Fin 2 → Fin S128x204800.rank)
  reducesTo_S128x204800_S128_d1 : S128x204800.ReducesTo [1] S128
  bcast_S_S128 : S_.BroadcastsInDim S128 (![] : Fin 0 → Fin S128.rank)
  reducesTo_S128_S_d0 : S128.ReducesTo [0] S_
  dot_S128x128_S128x204800_S128x204800_1_0_0_1_n_n_wf : DotDims.WF S128x128 S128x204800 S128x204800 [1] [0] [0] [1] [] []

variable [Facts₀]

def dot_S128x128_S128x204800_S128x204800_1_0_0_1_n_n : DotDims S128x128 S128x204800 S128x204800 where
  lhsContracting := [1]
  rhsContracting := [0]
  lhsNonContracting := [0]
  rhsNonContracting := [1]
  lhsBatch := []
  rhsBatch := []
  wf := dot_S128x128_S128x204800_S128x204800_1_0_0_1_n_n_wf

class Facts : Prop extends Facts₀ where

variable [Facts]
-- ==== Proof.Contrast.lean ====
/-
  The group-contrast loss, written twice as plain functions of its data on the extended reals.

  Data: `x i d` the normalised activation of sample `i`; `q c d` the queue's row `c` (50 classes of 4096 rows each,
  class `g` owning rows `g * 4096 .. g * 4096 + 4095`); `lp i` the raw cosine similarity of sample `i` with its EMA
  twin; `w i` the sample's weight; `qw c` the queue row's weight; `lab i` the sample's pseudo label, a 32-bit word.

  The reference's way: every queue row enters every sample's denominator, `D i = lp i + ∑ c, e^{(x_i · q_c) / ½}`, and
  the positive term sums over ALL 204800 rows with a 0/1 mask that keeps the rows of the sample's own class.

  The kernel's way: the exponent is `(x_i · q_c) · 2`; the denominator arrives as two partial sums (one per half of
  the classes, 25 classes each) added to `lp i`; the positive exponentials arrive as two partial tables over the 4096
  positions inside a class, each the sum over its 25 classes of (label = class) · exponential; the row weights are
  read at the sample's own class directly.
-/
import Idealize.ShloMosaic.PureOps.Ideal
import Mathlib.Algebra.BigOperators.Fin

noncomputable section

namespace Cert.Contrast

open Idealize.ShloMosaic
open scoped BigOperators

/-- The literals both programs carry, as the extended reals their words denote. -/
def half : EReal := Ideal.ofBits .f32 0x3F000000#32
def two : EReal := Ideal.ofBits .f32 0x40000000#32
def eps : EReal := Ideal.ofBits .f32 0x322BCC77#32
def nQ : EReal := Ideal.ofBits .f32 0x45800800#32
def nB : EReal := Ideal.ofBits .f32 0x43000000#32

/-- Row `k` of class `g` in the flat queue. -/
def col (g : Fin 50) (k : Fin 4096) : Fin 204800 := ⟨g.val * 4096 + k.val, by have := g.isLt; have := k.isLt; omega⟩

/-- The class the kernel's grid point `(p, j)` streams: core `p` takes classes `25 p .. 25 p + 24`. -/
def chunk (p : Fin 2) (j : Fin 25) : Fin 50 := ⟨p.val * 25 + j.val, by have := p.isLt; have := j.isLt; omega⟩

/-- `-log (s / D + ε)`. -/
def negLog (s D : EReal) : EReal := -Ideal.log (Ideal.div s D + eps)

section
variable (x : Fin 128 → Fin 128 → EReal) (q : Fin 204800 → Fin 128 → EReal) (lp w : Fin 128 → EReal)
  (qw : Fin 204800 → EReal) (lab : Fin 128 → BitVec 32)

/-- `x_i · q_c`. -/
def dot (i : Fin 128) (c : Fin 204800) : EReal := ∑ d : Fin 128, x i d * q c d

/-- The exponentiated similarity as the reference writes it, a quotient by one half. -/
def simR (i : Fin 128) (c : Fin 204800) : EReal := Ideal.exp (Ideal.div (dot x q i c) half)

/-- The same as the kernel writes it, a product with two. -/
def simK (i : Fin 128) (c : Fin 204800) : EReal := Ideal.exp (dot x q i c * two)

/-! ### The reference's way -/

def denomR (i : Fin 128) : EReal := lp i + ∑ c : Fin 204800, simR x q i c

/-- 1 on the queue rows of sample `i`'s own class, 0 elsewhere. -/
def maskR (i : Fin 128) (c : Fin 204800) : EReal := if BitVec.ofNat 32 (c.val / 4096) = lab i then 1 else 0

def posR (i : Fin 128) : EReal :=
  ∑ c : Fin 204800, (maskR lab i c * (w i * qw c)) * negLog (simR x q i c) (denomR x q lp i)

def emaR (i : Fin 128) : EReal := w i * negLog (lp i) (denomR x q lp i)

def lossR : EReal := Ideal.div (∑ i : Fin 128, Ideal.div (emaR x q lp w i + posR x q lp w qw lab i) nQ) nB

/-! ### What the kernel's launch leaves: per core `p` the partial denominators and the partial positive tables -/

def dpSpec (p : Fin 2) (i : Fin 128) : EReal := ∑ j : Fin 25, ∑ k : Fin 4096, simK x q i (col (chunk p j) k)

def spSpec (p : Fin 2) (i : Fin 128) (k : Fin 4096) : EReal :=
  ∑ j : Fin 25, (if lab i = BitVec.ofNat 32 (chunk p j).val then (1 : EReal) else 0) * simK x q i (col (chunk p j) k)

/-! ### The kernel's way, over the launch's two results -/

variable (dp : Fin 2 → Fin 128 → EReal) (sp : Fin 2 → Fin 128 → Fin 4096 → EReal) (cls : Fin 128 → Fin 50)

def denomK (i : Fin 128) : EReal := (lp i + dp 0 i) + dp 1 i

def sposK (i : Fin 128) (k : Fin 4096) : EReal := sp 0 i k + sp 1 i k

def posK (i : Fin 128) : EReal :=
  ∑ k : Fin 4096, (w i * qw (col (cls i) k)) * negLog (sposK sp i k) (denomK lp dp i)

def emaK (i : Fin 128) : EReal := w i * negLog (lp i) (denomK lp dp i)

def lossK : EReal := Ideal.div (∑ i : Fin 128, Ideal.div (emaK lp w dp i + posK lp w qw dp sp cls i) nQ) nB

end

end Cert.Contrast

end
-- ==== Proof.ContrastBridge.lean ====
/-
  The kernel's way of writing the group-contrast loss equals the reference's way.

  Four facts carry it. Dividing by one half is multiplying by two on every extended real. The flat queue index is
  the pair (class, position inside the class), and the class is the pair (half, class inside the half), so a sum over
  the queue is a sum over halves, classes and positions in any order; only the commutative monoid structure of the
  extended reals under addition is used. A sample's label word names exactly one class, so a sum over classes of
  (label = class) · term keeps one term: every other is 0 · y = 0. And the reference's 0/1 row mask at row
  (class, position) is the test class = the sample's own class.
-/
import proofs.«406886_j65506841198977_2_alg».proof.Proof.Contrast
import Mathlib.Algebra.BigOperators.Fin
import Mathlib.Algebra.BigOperators.Group.Finset.Basic
import Mathlib.Algebra.BigOperators.Group.Finset.Piecewise
import Mathlib.Data.Fintype.BigOperators
import Mathlib.Data.EReal.Inv

noncomputable section

namespace Cert.Contrast

open Idealize.ShloMosaic
open scoped BigOperators

/-! ### The two literals of the exponent -/

/-- The word `0x3F000000` denotes the real one half. -/
theorem half_eq : half = ((1 / 2 : ℝ) : EReal) := by
  simp [half, Ideal.ofBits, Ideal.ieee, -EReal.coe_mul]; norm_num

/-- The word `0x40000000` denotes the real two. -/
theorem two_eq : two = ((2 : ℝ) : EReal) := by
  simp [two, Ideal.ofBits, Ideal.ieee, -EReal.coe_mul]; norm_num

/-- Dividing by one half is multiplying by two, at the infinities and at junk too. -/
theorem div_half (y : EReal) : Ideal.div y half = y * two := by
  rw [half_eq, two_eq, Ideal.div_coe (by norm_num)]
  norm_num

theorem simK_eq_simR (x : Fin 128 → Fin 128 → EReal) (q : Fin 204800 → Fin 128 → EReal) (i : Fin 128)
    (c : Fin 204800) : simK x q i c = simR x q i c := by
  unfold simK simR
  rw [div_half]

/-! ### Reindexing the queue and the classes -/

/-- A queue row is a class and a position inside it. -/
def colEquiv : Fin 50 × Fin 4096 ≃ Fin 204800 where
  toFun gk := col gk.1 gk.2
  invFun c := (⟨c.val / 4096, by have := c.isLt; omega⟩, ⟨c.val % 4096, Nat.mod_lt _ (by norm_num)⟩)
  left_inv := by
    rintro ⟨g, k⟩
    have hg := g.isLt
    have hk := k.isLt
    ext
    · show (g.val * 4096 + k.val) / 4096 = g.val
      omega
    · show (g.val * 4096 + k.val) % 4096 = k.val
      omega
  right_inv := by
    intro c
    ext
    show c.val / 4096 * 4096 + c.val % 4096 = c.val
    omega

/-- A class is a half and a class inside the half. -/
def chunkEquiv : Fin 2 × Fin 25 ≃ Fin 50 where
  toFun pj := chunk pj.1 pj.2
  invFun g := (⟨g.val / 25, by have := g.isLt; omega⟩, ⟨g.val % 25, Nat.mod_lt _ (by norm_num)⟩)
  left_inv := by
    rintro ⟨p, j⟩
    have hp := p.isLt
    have hj := j.isLt
    ext
    · show (p.val * 25 + j.val) / 25 = p.val
      omega
    · show (p.val * 25 + j.val) % 25 = j.val
      omega
  right_inv := by
    intro g
    ext
    show g.val / 25 * 25 + g.val % 25 = g.val
    omega

/-- A sum over the queue is the sum over classes of the sums over positions. -/
theorem sum_col {M : Type*} [AddCommMonoid M] (f : Fin 204800 → M) :
    ∑ c, f c = ∑ g : Fin 50, ∑ k : Fin 4096, f (col g k) := by
  rw [← colEquiv.sum_comp, Fintype.sum_prod_type]
  rfl

/-- A sum over the classes is the first half's sum plus the second half's. -/
theorem sum_chunk {M : Type*} [AddCommMonoid M] (f : Fin 50 → M) :
    ∑ g, f g = ∑ j : Fin 25, f (chunk 0 j) + ∑ j : Fin 25, f (chunk 1 j) := by
  rw [← chunkEquiv.sum_comp, Fintype.sum_prod_type, Fin.sum_univ_two]
  rfl

/-- Of a family that vanishes off class `a`, the double sum is class `a`'s sum over positions. -/
theorem sum_class_collapse {M : Type*} [AddCommMonoid M] (a : Fin 50) (F : Fin 50 → Fin 4096 → M) :
    ∑ g : Fin 50, ∑ k : Fin 4096, (if g = a then F g k else 0) = ∑ k : Fin 4096, F a k := by
  rw [Finset.sum_eq_single a]
  · simp
  · intro g _ hg
    simp [hg]
  · intro h
    exact absurd (Finset.mem_univ a) h

/-! ### Labels and classes -/

/-- Two classes with the same 32-bit word are the same class: both numbers are below `2 ^ 32`. -/
theorem ofNat_class_inj (a b : Fin 50) : BitVec.ofNat 32 a.val = BitVec.ofNat 32 b.val ↔ a = b := by
  constructor
  · intro h
    have h' := congrArg BitVec.toNat h
    simp only [BitVec.toNat_ofNat] at h'
    have ha := a.isLt
    have hb := b.isLt
    ext
    omega
  · rintro rfl
    rfl

/-- The row of class `g` at position `k` lies in class `g`. -/
theorem col_div (g : Fin 50) (k : Fin 4096) : (col g k).val / 4096 = g.val := by
  have hk := k.isLt
  show (g.val * 4096 + k.val) / 4096 = g.val
  omega

section
variable (x : Fin 128 → Fin 128 → EReal) (q : Fin 204800 → Fin 128 → EReal) (lp w : Fin 128 → EReal)
  (qw : Fin 204800 → EReal) (lab : Fin 128 → BitVec 32)
  (cls : Fin 128 → Fin 50) (hcls : ∀ i, lab i = BitVec.ofNat 32 (cls i).val)
  (dp : Fin 2 → Fin 128 → EReal) (sp : Fin 2 → Fin 128 → Fin 4096 → EReal)
  (hdp : ∀ p i, dp p i = dpSpec x q p i) (hsp : ∀ p i k, sp p i k = spSpec x q lab p i k)

include hcls in
/-- The reference's mask at row (class, position) tests the class against the sample's own. -/
theorem maskR_col (i : Fin 128) (g : Fin 50) (k : Fin 4096) :
    maskR lab i (col g k) = if g = cls i then 1 else 0 := by
  unfold maskR
  simp only [col_div, hcls, ofNat_class_inj]

include hdp in
/-- The two partial denominators added to the twin similarity are the reference's denominator. -/
theorem denomK_eq_denomR (i : Fin 128) : denomK lp dp i = denomR x q lp i := by
  unfold denomK denomR
  rw [hdp, hdp, sum_col, sum_chunk, add_assoc]
  simp only [dpSpec, simK_eq_simR]

include hcls hsp in
/-- The two partial positive tables add up to the exponential at the sample's own class. -/
theorem sposK_eq (i : Fin 128) (k : Fin 4096) : sposK sp i k = simR x q i (col (cls i) k) := by
  unfold sposK
  rw [hsp, hsp]
  unfold spSpec
  rw [← sum_chunk (fun g : Fin 50 =>
    (if lab i = BitVec.ofNat 32 g.val then (1 : EReal) else 0) * simK x q i (col g k))]
  simp only [hcls, ofNat_class_inj, ite_mul, one_mul, zero_mul, Finset.sum_ite_eq, Finset.mem_univ, if_true,
    simK_eq_simR]

include hcls hdp hsp in
/-- The kernel's positive term is the reference's masked sum over the whole queue. -/
theorem posK_eq_posR (i : Fin 128) : posK lp w qw dp sp cls i = posR x q lp w qw lab i := by
  unfold posK posR
  rw [sum_col]
  simp only [maskR_col lab cls hcls, ite_mul, one_mul, zero_mul]
  rw [sum_class_collapse (cls i) (fun g k =>
    (w i * qw (col g k)) * negLog (simR x q i (col g k)) (denomR x q lp i))]
  simp only [sposK_eq x q lab cls hcls sp hsp, denomK_eq_denomR x q lp dp hdp]

include hcls hdp hsp in
theorem lossK_eq_lossR_aux : lossK lp w qw dp sp cls = lossR x q lp w qw lab := by
  unfold lossK lossR emaK emaR
  simp only [posK_eq_posR x q lp w qw lab cls hcls dp sp hdp hsp, denomK_eq_denomR x q lp dp hdp]

end

theorem lossK_eq_lossR (x : Fin 128 → Fin 128 → EReal) (q : Fin 204800 → Fin 128 → EReal)
    (lp w : Fin 128 → EReal) (qw : Fin 204800 → EReal) (lab : Fin 128 → BitVec 32)
    (cls : Fin 128 → Fin 50) (hcls : ∀ i, lab i = BitVec.ofNat 32 (cls i).val)
    (dp : Fin 2 → Fin 128 → EReal) (sp : Fin 2 → Fin 128 → Fin 4096 → EReal)
    (hdp : ∀ p i, dp p i = dpSpec x q p i) (hsp : ∀ p i k, sp p i k = spSpec x q lab p i k) :
    lossK lp w qw dp sp cls = lossR x q lp w qw lab :=
  lossK_eq_lossR_aux x q lp w qw lab cls hcls dp sp hdp hsp

end Cert.Contrast

end
-- ==== Proof.LabelRange.lean ====
/-
  The label range, read back from the precondition. The precondition's last conjunct is the conjunction over all
  128 samples of (0 ≤ label) ∧ (label < 50), both compared signed; a 32-bit word in [0, 50) read signed is the
  literal of a natural number below 50, so every pseudo label names one of the 50 classes.
-/
import proofs.«406886_j65506841198977_2_alg».proof.Defs
import proofs.«406886_j65506841198977_2_alg».proof.Proof.Gen.Pre_finite_inputs
import proofs.«406886_j65506841198977_2_alg».proof.Proof.Gen.KernelIdeal
import Idealize.ShloMosaic.Lib.ValueIdx
import Idealize.ShloMosaic.Lib.ReduceAll

noncomputable section

namespace Cert.LabelRange

open Idealize.ShloMosaic Idealize.SL.Sem
open Cert.Pre_finite_inputs

/-- A rank-0 array has one index. -/
instance : Subsingleton S_.Idx := ⟨fun a b => funext fun d => d.elim0⟩

/-- A word that compares signed at least 0 and signed below 50 reads, unsigned, below 50. -/
theorem toNat_lt_of_range (w : BitVec 32) (h0 : IntOp.cmpi .sge w 0#32 = 1#1) (h1 : IntOp.cmpi .slt w 50#32 = 1#1) :
    w.toNat < 50 := by
  rw [IntOp.cmpi_sge] at h0
  rw [IntOp.cmpi_slt] at h1
  have e0 : (0#32 : BitVec 32).toInt = 0 := by decide
  have e50 : (50#32 : BitVec 32).toInt = 50 := by decide
  rw [e0] at h0
  rw [e50] at h1
  have hlt := w.isLt
  rw [BitVec.toInt_eq_toNat_cond] at h0 h1
  by_cases hc : 2 * w.toNat < 2 ^ 32
  · rw [if_pos hc] at h0 h1; omega
  · rw [if_neg hc] at h0 h1; omega

/-- A word is the literal of its unsigned reading. -/
theorem eq_ofNat_toNat (w : BitVec 32) : w = BitVec.ofNat 32 w.toNat := by
  apply BitVec.eq_of_toNat_eq
  rw [BitVec.toNat_ofNat]
  exact (Nat.mod_eq_of_lt w.isLt).symm

/-- The precondition's last conjunct at sample i: the label compares in [0, 50). -/
theorem lane_of_fn (a0 a1 : FVec Ideal S128x128 .f32) (a2 : FVec Ideal S128x1 .f32) (a3 : FVec Ideal S204800x128 .f32)
    (a4 : FVec Ideal S204800x1 .f32) (a5 : IVec S128 32)
    (h : Cert.Pre_finite_inputs.fn (F := Ideal) a0 a1 a2 a3 a4 a5 = (fun _ => 1#1)) (i : Fin 128) :
    IntOp.cmpi .sge (a5 (ValueIdx.ix1 i)) 0#32 = 1#1 ∧ IntOp.cmpi .slt (a5 (ValueIdx.ix1 i)) 50#32 = 1#1 := by
  have e := congrFun h ValueIdx.ix0
  unfold Cert.Pre_finite_inputs.fn Cert.Pre_finite_inputs.fn_part1 at e
  dsimp only at e
  have e29 := (IntOp.andi_eq_one.1 e).2
  have e28 := Host.reduce_andi_all _ _ _ _ _ e29 (ValueIdx.ix1 i)
  exact IntOp.andi_eq_one.1 e28

theorem cls_of_fn (a0 a1 : FVec Ideal S128x128 .f32) (a2 : FVec Ideal S128x1 .f32) (a3 : FVec Ideal S204800x128 .f32)
    (a4 : FVec Ideal S204800x1 .f32) (a5 : IVec S128 32)
    (h : Cert.Pre_finite_inputs.fn (F := Ideal) a0 a1 a2 a3 a4 a5 = (fun _ => 1#1)) :
    ∃ cls : Fin 128 → Fin 50, ∀ i : Fin 128, a5 (ValueIdx.ix1 i) = BitVec.ofNat 32 (cls i).val := by
  have hb : ∀ i : Fin 128, (a5 (ValueIdx.ix1 i)).toNat < 50 := fun i =>
    toNat_lt_of_range _ (lane_of_fn a0 a1 a2 a3 a4 a5 h i).1 (lane_of_fn a0 a1 a2 a3 a4 a5 h i).2
  exact ⟨fun i => ⟨(a5 (ValueIdx.ix1 i)).toNat, hb i⟩, fun i => eq_ofNat_toNat _⟩

theorem cls_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∃ cls : Fin 128 → Fin 50, ∀ i : Fin 128,
      m ((c.tc : Thread Cert.KernelIdeal.nD Cert.KernelIdeal.τ).loc Cert.KernelIdeal.main_arg5) (ValueIdx.ix1 i)
        = BitVec.ofNat 32 (cls i).val :=
  cls_of_fn _ _ _ _ _ _ (h c)

end Cert.LabelRange

end
-- ==== Proof.KerRegionPieces.lean ====
/-
  What one grid point of the group-contrast kernel leaves in its two result blocks, read as the body's arithmetic.

  At a grid point the body holds a (128,1) block of partial denominators and a (128,4096) block of partial positive
  tables. At the first point of a core it stores zeros to both and then adds this point's term to what it reads back;
  at every other point it adds this point's term to what the point before left. Either way each block ends with ONE
  store covering it, so the block's contents are that store's value: the body's arithmetic applied to the three input
  blocks and to the old contents (the zeros, at a first point).
-/
import proofs.«406886_j65506841198977_2_alg».proof.Proof.Gen.KernelIdeal.Frame
import Idealize.ShloMosaic.Lib.Pipeline.Value

noncomputable section

open Idealize.ShloMosaic Idealize.ShloMosaic.TcCoe Idealize.SL.Sem

namespace Cert.KernelIdeal.Region

open Cert.KernelIdeal Cert.KernelIdeal.Gen

variable {F : FTy → Type} [FloatOps F]

/-! ## What each control case leaves in the two staging blocks, as the body's arithmetic -/

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its core: the row-sum block ends at the body's sum over what it held. -/
theorem pieceB3 (c : Dev nD) (i : grid0.Coords) (a2 : Memref sig .tc .vmem S128x128 .f32) (h2 : a2.IsWhole)
    (a3 : Memref sig .tc .vmem S128x1 .i32) (h3 : a3.IsWhole) (a4 : Memref sig .tc .vmem S4096x128 .f32) (h4 : a4.IsWhole)
    (a5 : Memref sig .tc .vmem S1x128x1 .f32) (h5 : a5.IsWhole) (a6 : Memref sig .tc .vmem S1x128x4096 .f32) (h6 : a6.IsWhole)
    (hc : ¬cond0_0 i) (x0 : Vec F S128x128 .f32) (x1 : Vec F S128x1 .i32) (x2 : Vec F S4096x128 .f32)
    (xo3 : Vec F S1x128x1 .f32) (xo4 : Vec F S1x128x4096 .f32) :
    out0_B_3 c i a2 h2 a3 h3 a4 h4 a5 h5 a6 h6 hc x0 x1 x2 xo3 xo4 = k0_pay5 x0 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h4.read_unread, h5.read_unread, View.ld_unit_zero (S := S128x128) hz2,
    View.ld_unit_zero (S := S4096x128) hz2, View.ld_unit_zero (S := S1x128x1) hz3]

/-- The first point of a core: the row-sum block is zeroed, then ends at the body's sum over the zeros. -/
theorem pieceA3 (c : Dev nD) (i : grid0.Coords) (a2 : Memref sig .tc .vmem S128x128 .f32) (h2 : a2.IsWhole)
    (a3 : Memref sig .tc .vmem S128x1 .i32) (h3 : a3.IsWhole) (a4 : Memref sig .tc .vmem S4096x128 .f32) (h4 : a4.IsWhole)
    (a5 : Memref sig .tc .vmem S1x128x1 .f32) (h5 : a5.IsWhole) (a6 : Memref sig .tc .vmem S1x128x4096 .f32) (h6 : a6.IsWhole)
    (hc : cond0_0 i) (x0 : Vec F S128x128 .f32) (x1 : Vec F S128x1 .i32) (x2 : Vec F S4096x128 .f32) :
    out0_A_3 c i a2 h2 a3 h3 a4 h4 a5 h5 a6 h6 hc x0 x1 x2 = k0_pay5 x0 x2 k0_pay2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x128x1) hz3]
  simp only [View.readAt_eq_ld, h2.read_unread, h4.read_unread, View.ld_unit_zero (S := S128x128) hz2,
    View.ld_unit_zero (S := S4096x128) hz2, View.readCov_unit_zero (S := S1x128x1) _ hz3]

/-- A point that is not the first of its core: the masked table ends at the body's update of what it held. -/
theorem pieceB4 (c : Dev nD) (i : grid0.Coords) (a2 : Memref sig .tc .vmem S128x128 .f32) (h2 : a2.IsWhole)
    (a3 : Memref sig .tc .vmem S128x1 .i32) (h3 : a3.IsWhole) (a4 : Memref sig .tc .vmem S4096x128 .f32) (h4 : a4.IsWhole)
    (a5 : Memref sig .tc .vmem S1x128x1 .f32) (h5 : a5.IsWhole) (a6 : Memref sig .tc .vmem S1x128x4096 .f32) (h6 : a6.IsWhole)
    (hc : ¬cond0_0 i) (x0 : Vec F S128x128 .f32) (x1 : Vec F S128x1 .i32) (x2 : Vec F S4096x128 .f32)
    (xo3 : Vec F S1x128x1 .f32) (xo4 : Vec F S1x128x4096 .f32) :
    out0_B_4 c i a2 h2 a3 h3 a4 h4 a5 h5 a6 h6 hc x0 x1 x2 xo3 xo4 = k0_pay1 (k0_pay6 i x0 x2 x1 xo4) := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h6.read_unread,
    View.ld_unit_zero (S := S128x128) hz2, View.ld_unit_zero (S := S4096x128) hz2, View.ld_unit_zero (S := S128x1) hz2,
    View.ld_unit_zero (S := S1x128x4096) hz3]

/-- The first point of a core: the masked table is zeroed, then ends at the body's update of the zeros. -/
theorem pieceA4 (c : Dev nD) (i : grid0.Coords) (a2 : Memref sig .tc .vmem S128x128 .f32) (h2 : a2.IsWhole)
    (a3 : Memref sig .tc .vmem S128x1 .i32) (h3 : a3.IsWhole) (a4 : Memref sig .tc .vmem S4096x128 .f32) (h4 : a4.IsWhole)
    (a5 : Memref sig .tc .vmem S1x128x1 .f32) (h5 : a5.IsWhole) (a6 : Memref sig .tc .vmem S1x128x4096 .f32) (h6 : a6.IsWhole)
    (hc : cond0_0 i) (x0 : Vec F S128x128 .f32) (x1 : Vec F S128x1 .i32) (x2 : Vec F S4096x128 .f32) :
    out0_A_4 c i a2 h2 a3 h3 a4 h4 a5 h5 a6 h6 hc x0 x1 x2 = k0_pay1 (k0_pay6 i x0 x2 x1 k0_pay3) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x128x4096) hz3]
  simp only [View.readAt_eq_ld, h2.read_unread, h3.read_unread, h4.read_unread,
    View.ld_unit_zero (S := S128x128) hz2, View.ld_unit_zero (S := S4096x128) hz2, View.ld_unit_zero (S := S128x1) hz2,
    View.readCov_unit_zero (S := S1x128x4096) _ hz3]

end Cert.KernelIdeal.Region
end
-- ==== Proof.KerRegionPay.lean ====
/-
  The arithmetic of the group-contrast kernel's body, read at one index on the extended reals.

  From the (128,128) activations x and a (4096,128) block q of the queue the body forms the table
  P(i, r) = exp((∑_d x(i,d) · q(r,d)) · 2): the narrowing to bf16 is the identity on extended reals, the transposed
  block enters a matrix product with a zero accumulator, the result is doubled and exponentiated. The row-sum block
  then receives old(i) + ∑_r P(i, r), and the masked table receives old(i, k) + [label(i) = g] · P(i, k), where g is
  the class word 25 · p + j the body computes from the grid coordinates and the 0/1 mask is the comparison's bit
  widened and converted to a float.
-/
import proofs.«406886_j65506841198977_2_alg».proof.Proof.Gen.KernelIdeal.Frame
import proofs.«406886_j65506841198977_2_alg».proof.Proof.Contrast
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.Region

open Cert.KernelIdeal Cert.KernelIdeal.Gen

/-! ## The body's arithmetic read at an index, on the extended reals -/

/-- The product's left operand index on its kept axis is the result's row. -/
theorem lhs_dot_0 (j : S128x4096.Idx) (k : dot_S128x128_S128x4096_S128x4096_1_0_0_1_n_n.contr.Idx) :
    (dot_S128x128_S128x4096_S128x4096_1_0_0_1_n_n.lhsIdx j k 0).val = (j 0).val := by
  unfold DotDims.lhsIdx
  rw [dif_neg (show ¬(0 : Fin S128x128.rank) ∈ dot_S128x128_S128x4096_S128x4096_1_0_0_1_n_n.lhsBatch by decide),
    dif_pos (show (0 : Fin S128x128.rank) ∈ dot_S128x128_S128x4096_S128x4096_1_0_0_1_n_n.lhsNonContracting by decide)]
  rfl

/-- On its contracted axis it is the contraction position. -/
theorem lhs_dot_1 (j : S128x4096.Idx) (k : dot_S128x128_S128x4096_S128x4096_1_0_0_1_n_n.contr.Idx) :
    (dot_S128x128_S128x4096_S128x4096_1_0_0_1_n_n.lhsIdx j k 1).val = (k ⟨0, Nat.one_pos⟩).val :=
  DotDims.lhsIdx_val_of_single (d := dot_S128x128_S128x4096_S128x4096_1_0_0_1_n_n) (cl := 1) rfl j k

/-- The right operand index on its contracted axis is the contraction position. -/
theorem rhs_dot_0 (j : S128x4096.Idx) (k : dot_S128x128_S128x4096_S128x4096_1_0_0_1_n_n.contr.Idx) :
    (dot_S128x128_S128x4096_S128x4096_1_0_0_1_n_n.rhsIdx j k 0).val = (k ⟨0, Nat.one_pos⟩).val :=
  DotDims.rhsIdx_val_of_single (d := dot_S128x128_S128x4096_S128x4096_1_0_0_1_n_n) (cr := 0) rfl j k

/-- On its kept axis it is the result's column. -/
theorem rhs_dot_1 (j : S128x4096.Idx) (k : dot_S128x128_S128x4096_S128x4096_1_0_0_1_n_n.contr.Idx) :
    (dot_S128x128_S128x4096_S128x4096_1_0_0_1_n_n.rhsIdx j k 1).val = (j 1).val := by
  unfold DotDims.rhsIdx
  rw [dif_neg (show ¬(1 : Fin S128x4096.rank) ∈ dot_S128x128_S128x4096_S128x4096_1_0_0_1_n_n.rhsBatch by decide),
    dif_pos (show (1 : Fin S128x4096.rank) ∈ dot_S128x128_S128x4096_S128x4096_1_0_0_1_n_n.rhsNonContracting by decide)]
  rfl

/-- The matrix product into a zero accumulator, at (i, r): the sum over the shared axis. -/
theorem matmul_at (A : FVec Ideal S128x128 .bf16) (B : FVec Ideal S128x4096 .bf16) (i : Fin 128) (r : Fin 4096) :
    matmul dot_S128x128_S128x4096_S128x4096_1_0_0_1_n_n none A B (constant (F := Ideal) S128x4096 .f32 0x00000000#32) (ix2 i r)
      = ∑ d : Fin 128, A (ix2 i d) * B (ix2 d r) := by
  show FloatOps.matmul _ none A B _ (ix2 i r) = _
  rw [Ideal.matmul_constant_zero_apply,
    ← Equiv.sum_comp (contrEquiv1 dot_S128x128_S128x4096_S128x4096_1_0_0_1_n_n 128 rfl rfl).symm]
  refine Finset.sum_congr rfl fun d _ => ?_
  have hk := contrEquiv1_symm_val dot_S128x128_S128x4096_S128x4096_1_0_0_1_n_n 128 rfl rfl d
  have l : dot_S128x128_S128x4096_S128x4096_1_0_0_1_n_n.lhsIdx (ix2 i r)
      ((contrEquiv1 dot_S128x128_S128x4096_S128x4096_1_0_0_1_n_n 128 rfl rfl).symm d) = ix2 i d := by
    funext ax; apply Fin.ext
    match ax with
    | ⟨0, _⟩ => exact lhs_dot_0 _ _
    | ⟨1, _⟩ => exact (lhs_dot_1 _ _).trans hk
  have r' : dot_S128x128_S128x4096_S128x4096_1_0_0_1_n_n.rhsIdx (ix2 i r)
      ((contrEquiv1 dot_S128x128_S128x4096_S128x4096_1_0_0_1_n_n 128 rfl rfl).symm d) = ix2 d r := by
    funext ax; apply Fin.ext
    match ax with
    | ⟨0, _⟩ => exact (rhs_dot_0 _ _).trans hk
    | ⟨1, _⟩ => exact rhs_dot_1 _ _
  rw [l, r']

/-- The exponentiated doubled product the body forms from the activations and a queue block, at (i, r). -/
theorem pay4_at (x0 : Vec Ideal S128x128 .f32) (x2 : Vec Ideal S4096x128 .f32) (i : Fin 128) (r : Fin 4096) :
    k0_pay4 (F := Ideal) x0 x2 (ix2 i r)
      = Ideal.exp ((∑ d : Fin 128, x0 (ix2 i d) * x2 (ix2 r d)) * Cert.Contrast.two) := by
  have e := matmul_at (truncf .bf16 (shapeCast S128x128 x0 shapeCasts_S128x128_S128x128) bitsLt_bf16_f32)
    (transpose S128x4096 [1, 0] (truncf .bf16 x2 bitsLt_bf16_f32) transposes_S4096x128_p1_0_S128x4096) i r
  have e' : ∀ d : Fin 128,
      (truncf .bf16 (shapeCast S128x128 x0 shapeCasts_S128x128_S128x128) bitsLt_bf16_f32 : FVec Ideal S128x128 .bf16) (ix2 i d)
        * (transpose S128x4096 [1, 0] (truncf .bf16 x2 bitsLt_bf16_f32 : FVec Ideal S4096x128 .bf16) transposes_S4096x128_p1_0_S128x4096) (ix2 d r)
      = x0 (ix2 i d) * x2 (ix2 r d) := fun d => by
    rw [transpose_ix2_apply]
    show shapeCast S128x128 x0 shapeCasts_S128x128_S128x128 (ix2 i d) * x2 (ix2 r d) = _
    rw [shapeCast_self]
  unfold k0_pay4
  exact congrArg (fun z => Ideal.exp (z * Ideal.ofBits .f32 0x40000000#32)) (e.trans (Finset.sum_congr rfl fun d _ => e' d))

/-- A vector cast to a column reads, at (i, z), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column broadcast along rows reads, at (i, k), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- The lane sum of a table, at row i. -/
theorem lanesum_at (P : FVec Ideal S128x4096 .f32) (i : Fin 128) :
    multiReduction (F := Ideal) .add [1] S128 P 0x00000000#32 reduces_S128x4096_S128 (.inl rfl) rfl (ix1 i)
      = ∑ r : Fin 4096, P (ix2 i r) := by
  refine (Ideal.multiReduction_add_single P 0x00000000#32 reduces_S128x4096_S128 (.inl rfl) rfl (ix1 i)).trans ?_
  refine Finset.sum_congr rfl fun r _ => congrArg P ?_
  funext ax
  match ax with
  | ⟨0, _⟩ => rfl
  | ⟨1, _⟩ => rfl

/-- What the body stores to the row-sum block, over a table P and the block's old contents: old + lane sum. -/
theorem rowsum_at (P : FVec Ideal S128x4096 .f32) (v13 : FVec Ideal S1x128x1 .f32) (i : Fin 128) :
    shapeCast S1x128x1 (addf (shapeCast S128x1 v13 shapeCasts_S1x128x1_S128x1)
        (shapeCast S128x1 (multiReduction (F := Ideal) .add [1] S128 P 0x00000000#32 reduces_S128x4096_S128 (.inl rfl) rfl)
          shapeCasts_S128_S128x1)) shapeCasts_S128x1_S1x128x1 (ix3 (0 : Fin 1) i (0 : Fin 1))
      = v13 (ix3 (0 : Fin 1) i (0 : Fin 1)) + ∑ r : Fin 4096, P (ix2 i r) := by
  rw [shapeCast_ab_1ab_apply, addf_apply, shapeCast_1ab_ab_apply, shapeCast_a_a1_apply, lanesum_at]

theorem pay5_at (x0 : Vec Ideal S128x128 .f32) (x2 : Vec Ideal S4096x128 .f32) (v13 : Vec Ideal S1x128x1 .f32) (i : Fin 128) :
    k0_pay5 (F := Ideal) x0 x2 v13 (ix3 (0 : Fin 1) i (0 : Fin 1))
      = v13 (ix3 (0 : Fin 1) i (0 : Fin 1)) + ∑ r : Fin 4096, k0_pay4 (F := Ideal) x0 x2 (ix2 i r) := by
  unfold k0_pay5
  exact rowsum_at (k0_pay4 (F := Ideal) x0 x2) v13 i

/-- The 0/1 word of "label = class", as an extended real. -/
theorem mask_at (l g : BitVec 32) :
    (FloatOps.sitofp (F := Ideal) .f32 ((IntOp.cmpi .eq l g).setWidth 32) : EReal) = if l = g then 1 else 0 := by
  by_cases h : l = g
  · subst h
    rw [if_pos rfl]
    have : IntOp.cmpi .eq l l = 1#1 := by simp [IntOp.cmpi]
    rw [this]
    show (((1#1 : BitVec 1).setWidth 32).toInt : ℝ) = ((1 : ℝ) : EReal)
    norm_num
  · rw [if_neg h]
    have : IntOp.cmpi .eq l g = 0#1 := by
      show BitVec.ofBool (l == g) = 0#1
      rw [beq_eq_false_iff_ne.mpr h]; rfl
    rw [this]
    show ((((0#1 : BitVec 1).setWidth 32).toInt : ℝ) : EReal) = 0
    norm_num

/-- What the body stores to the masked table, over a table P, the labels and the block's old contents. -/
theorem masked_at (P : FVec Ideal S128x4096 .f32) (g : BitVec 32) (v23 : IVec S128x1 32) (v29 : FVec Ideal S1x128x4096 .f32)
    (i : Fin 128) (k : Fin 4096) :
    shapeCast S1x128x4096 (addf (shapeCast S128x4096 v29 shapeCasts_S1x128x4096_S128x4096)
        (mulf (broadcastTo S128x4096 (sitofp (F := Ideal) .f32 (extui 32 (cmpi .eq (shapeCast S128x1 v23 shapeCasts_S128x1_S128x1)
          (broadcast S128x1 g)) natLt_1_32)) broadcasts_S128x1_S128x4096) P)) shapeCasts_S128x4096_S1x128x4096 (ix3 (0 : Fin 1) i k)
      = v29 (ix3 (0 : Fin 1) i k) + (if v23 (ix2 i (0 : Fin 1)) = g then (1 : EReal) else 0) * P (ix2 i k) := by
  rw [shapeCast_ab_1ab_apply, addf_apply, shapeCast_1ab_ab_apply, mulf_apply, broadcastTo_a1_ab_apply, shapeCast_self]
  show _ + FloatOps.sitofp (F := Ideal) .f32 ((IntOp.cmpi .eq (v23 (ix2 i (0 : Fin 1))) g).setWidth 32) * _ = _
  rw [mask_at]

theorem pay6_at (gi : grid0.Coords) (x0 : Vec Ideal S128x128 .f32) (x2 : Vec Ideal S4096x128 .f32) (v23 : Vec Ideal S128x1 .i32)
    (v29 : Vec Ideal S1x128x4096 .f32) (i : Fin 128) (k : Fin 4096) :
    k0_pay1 (F := Ideal) (k0_pay6 (F := Ideal) gi x0 x2 v23 v29) (ix3 (0 : Fin 1) i k)
      = v29 (ix3 (0 : Fin 1) i k)
        + (if v23 (ix2 i (0 : Fin 1)) = Scalar.addi (Scalar.muli (BitVec.ofNat 32 (gi 0).val) 25#32) (BitVec.ofNat 32 (gi 1).val)
            then (1 : EReal) else 0) * k0_pay4 (F := Ideal) x0 x2 (ix2 i k) := by
  unfold k0_pay1 k0_pay6
  exact masked_at (k0_pay4 (F := Ideal) x0 x2) _ v23 v29 i k

end Cert.KernelIdeal.Region
end
-- ==== Proof.KerRegion.lean ====
/-
  What the group-contrast kernel's launch leaves in its two result arrays, read off the grid point by point.

  The launch runs the grid (2, 25): point t = 25 p + j belongs to core p and streams class 25 p + j of the queue, the
  4096 rows (25 p + j) · 4096 … (25 p + j) · 4096 + 4095. With s(i, c) = exp((x_i · q_c) · 2), each point adds
  ∑_r s(i, row r of its class) to row i of its core's (128,1) block of partial denominators and
  [label(i) = 25 p + j] · s(i, row k of its class) to entry (i, k) of its core's (128,4096) block of partial positive
  tables; the first point of a core starts both blocks from zero, every other point continues from what the point
  before left. So after point 25 p + j a block holds the sum of the terms of points 25 p … 25 p + j (induction on j),
  and the block is written back to row p of its array only after the core's last point, j = 24, when that sum is the
  specification's partial sum over the core's 25 classes. The two cores' rows together are the whole of each array.
-/
import proofs.«406886_j65506841198977_2_alg».proof.Proof.Gen.KernelIdeal.Frame
import proofs.«406886_j65506841198977_2_alg».proof.Proof.Contrast
import proofs.«406886_j65506841198977_2_alg».proof.Proof.KerRegionPieces
import proofs.«406886_j65506841198977_2_alg».proof.Proof.KerRegionPay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region

open Cert.KernelIdeal Cert.KernelIdeal.Gen

/-! ## The arrays the launch reads and leaves, and its blocks -/

section Arrays
variable (m : (ℓ : Loc nD τ sig) → Buf (Elt Ideal) ℓ)

/-- The normalised activations, the labels, the queue, and the two result arrays, each at its literal type. -/
abbrev xArr (c : Dev nD) : FVec Ideal S128x128 .f32 := V m c main_v7
abbrev labArr (c : Dev nD) : IVec S128x1 32 := V m c main_v19
abbrev qArr (c : Dev nD) : FVec Ideal S204800x128 .f32 := V m c main_arg3
abbrev dpArr (c : Dev nD) : FVec Ideal S2x128x1 .f32 := (dats m 0 c).arrAt 3 cfg0.N
abbrev spArr (c : Dev nD) : FVec Ideal S2x128x4096 .f32 := (dats m 0 c).arrAt 4 cfg0.N

/-- The three input blocks at a grid point. -/
abbrev xblk (c : Dev nD) (t : Fin cfg0.N) : Vec Ideal S128x128 .f32 := iblk m c 0 t
abbrev lblk (c : Dev nD) (t : Fin cfg0.N) : Vec Ideal S128x1 .i32 := iblk m c 1 t
abbrev qblk (c : Dev nD) (t : Fin cfg0.N) : Vec Ideal S4096x128 .f32 := iblk m c 2 t

/-- Where each window's block sits at point t: the two whole inputs at the origin, the queue at block row t, the two
    results at block t / 25. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 25 ∧ win0_3.index t (1 : Fin 3) = 0 ∧ win0_3.index t (2 : Fin 3) = 0
    ∧ win0_4.index t (0 : Fin 3) = t.val / 25 ∧ win0_4.index t (1 : Fin 3) = 0 ∧ win0_4.index t (2 : Fin 3) = 0 :=
  (by decide +kernel : ∀ t : Fin grid0.N, _)

/-- The class word the body compares labels with at point t is t itself: 25 p + j does not wrap. -/
theorem gword : ∀ t : Fin cfg0.N,
    Scalar.addi (Scalar.muli (BitVec.ofNat 32 ((grid0.coords t) 0).val) 25#32) (BitVec.ofNat 32 ((grid0.coords t) 1).val)
      = BitVec.ofNat 32 t.val :=
  (by decide +kernel : ∀ t : Fin grid0.N, _)

theorem xblk_at (c : Dev nD) (t : Fin cfg0.N) (i d : Fin 128) : xblk m c t (ix2 i d) = xArr m c (ix2 i d) := by
  obtain ⟨e0, e1, -⟩ := idx_facts t
  show V m c main_v7 (((cfg0.win 0).blk t).view.emb (ix2 i d)) = V m c main_v7 (ix2 i d)
  refine congrArg (V m c main_v7) ?_
  funext a; apply Fin.ext
  match a with
  | ⟨0, _⟩ => show win0_0.index t (0 : Fin 2) * 128 + 1 * i.val = i.val; rw [e0]; omega
  | ⟨1, _⟩ => show win0_0.index t (1 : Fin 2) * 128 + 1 * d.val = d.val; rw [e1]; omega

theorem lblk_at (c : Dev nD) (t : Fin cfg0.N) (i : Fin 128) : lblk m c t (ix2 i (0 : Fin 1)) = labArr m c (ix2 i (0 : Fin 1)) := by
  obtain ⟨-, -, e0, e1, -⟩ := idx_facts t
  show V m c main_v19 (((cfg0.win 1).blk t).view.emb (ix2 i (0 : Fin 1))) = V m c main_v19 (ix2 i (0 : Fin 1))
  refine congrArg (V m c main_v19) ?_
  funext a; apply Fin.ext
  match a with
  | ⟨0, _⟩ => show win0_1.index t (0 : Fin 2) * 128 + 1 * i.val = i.val; rw [e0]; omega
  | ⟨1, _⟩ => show win0_1.index t (1 : Fin 2) * 1 + 1 * 0 = 0; rw [e1]

/-- Row r of the queue block at point n, in the flat queue. -/
def rowOf (n : ℕ) (r : Fin 4096) : Fin 204800 := ⟨(n % 50) * 4096 + r.val, by have := r.isLt; omega⟩

theorem qblk_at (c : Dev nD) (t : Fin cfg0.N) (r : Fin 4096) (d : Fin 128) :
    qblk m c t (ix2 r d) = qArr m c (ix2 (rowOf t.val r) d) := by
  obtain ⟨-, -, -, -, e0, e1, -⟩ := idx_facts t
  have hN : t.val < 50 := lt_of_lt_of_eq t.isLt (show cfg0.N = 50 from N_0)
  show V m c main_arg3 (((cfg0.win 2).blk t).view.emb (ix2 r d)) = V m c main_arg3 (ix2 (rowOf t.val r) d)
  refine congrArg (V m c main_arg3) ?_
  funext a; apply Fin.ext
  match a with
  | ⟨0, _⟩ => show win0_2.index t (0 : Fin 2) * 4096 + 1 * r.val = (t.val % 50) * 4096 + r.val; rw [e0]; omega
  | ⟨1, _⟩ => show win0_2.index t (1 : Fin 2) * 128 + 1 * d.val = d.val; rw [e1]; omega

end Arrays

section Inv
variable (m : (ℓ : Loc nD τ sig) → Buf (Elt Ideal) ℓ)

open Cert.Contrast

/-- The launch's data as plain functions of coordinates. -/
abbrev X (c : Dev nD) : Fin 128 → Fin 128 → EReal := fun i d => xArr m c (ix2 i d)
abbrev Q (c : Dev nD) : Fin 204800 → Fin 128 → EReal := fun r d => qArr m c (ix2 r d)
abbrev Lb (c : Dev nD) : Fin 128 → BitVec 32 := fun i => labArr m c (ix2 i (0 : Fin 1))

/-- What point n adds to row i of the partial denominators, and to entry (i, k) of the partial positive table. -/
def T3 (x : Fin 128 → Fin 128 → EReal) (q : Fin 204800 → Fin 128 → EReal) (n : ℕ) (i : Fin 128) : EReal :=
  ∑ r : Fin 4096, simK x q i (rowOf n r)
def T4 (x : Fin 128 → Fin 128 → EReal) (q : Fin 204800 → Fin 128 → EReal) (lab : Fin 128 → BitVec 32) (n : ℕ)
    (i : Fin 128) (k : Fin 4096) : EReal :=
  (if lab i = BitVec.ofNat 32 n then (1 : EReal) else 0) * simK x q i (rowOf n k)

/-- The body's table at point t is the kernel-side similarity of sample i with row r of the class t streams. -/
theorem pay4_blk (c : Dev nD) (t : Fin cfg0.N) (i : Fin 128) (r : Fin 4096) :
    k0_pay4 (F := Ideal) (xblk m c t) (qblk m c t) (ix2 i r) = simK (X m c) (Q m c) i (rowOf t.val r) := by
  refine (pay4_at (xblk m c t) (qblk m c t) i r).trans ?_
  unfold simK dot
  refine congrArg (fun z => Ideal.exp (z * two)) (Finset.sum_congr rfl fun d _ => ?_)
  rw [xblk_at, qblk_at]

/-- The zeros the first point of a core stores. -/
theorem pay2_at (i : Fin 128) : k0_pay2 (F := Ideal) (ix3 (0 : Fin 1) i (0 : Fin 1)) = 0 := by
  unfold k0_pay2
  refine (shapeCast_ab_1ab_apply _ shapeCasts_S128x1_S1x128x1 (0 : Fin 1) i (0 : Fin 1)).trans ?_
  exact Ideal.ofBits_zero_f32
theorem pay3_at (i : Fin 128) (k : Fin 4096) : k0_pay3 (F := Ideal) (ix3 (0 : Fin 1) i k) = 0 := by
  unfold k0_pay3
  refine (shapeCast_ab_1ab_apply _ shapeCasts_S128x4096_S1x128x4096 (0 : Fin 1) i k).trans ?_
  exact Ideal.ofBits_zero_f32

/-- A first point of a core leaves this point's term in the row-sum block. -/
theorem stepA3 (c : Dev nD) (t : Fin cfg0.N) (h0 : t.val % 25 = 0) (i : Fin 128) :
    (outsAt0 m c t.val t.isLt).1 (ix3 (0 : Fin 1) i (0 : Fin 1)) = T3 (X m c) (Q m c) t.val i := by
  rw [outsAt0_A m c t h0]
  dsimp only
  refine (congrFun (pieceA3 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m c t) (lblk m c t) (qblk m c t))
    (ix3 (0 : Fin 1) i (0 : Fin 1))).trans ?_
  refine (pay5_at (xblk m c t) (qblk m c t) (k0_pay2 (F := Ideal)) i).trans ?_
  rw [pay2_at, zero_add]
  unfold T3
  exact Finset.sum_congr rfl fun r _ => pay4_blk m c t i r

/-- Any other point adds its term to what the point before left there. -/
theorem stepB3 (c : Dev nD) (t : Fin cfg0.N) (h0 : ¬t.val % 25 = 0) (i : Fin 128) :
    (outsAt0 m c t.val t.isLt).1 (ix3 (0 : Fin 1) i (0 : Fin 1))
      = (outsAt0 m c (t.val - 1) (Nat.lt_of_le_of_lt (Nat.sub_le _ _) t.isLt)).1 (ix3 (0 : Fin 1) i (0 : Fin 1))
        + T3 (X m c) (Q m c) t.val i := by
  rw [outsAt0_B m c t h0]
  dsimp only
  refine (congrFun (pieceB3 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m c t) (lblk m c t) (qblk m c t)
    (outsAt0 m c (t.val - 1) (Nat.lt_of_le_of_lt (Nat.sub_le _ _) t.isLt)).1
    (outsAt0 m c (t.val - 1) (Nat.lt_of_le_of_lt (Nat.sub_le _ _) t.isLt)).2)
    (ix3 (0 : Fin 1) i (0 : Fin 1))).trans ?_
  refine (pay5_at (xblk m c t) (qblk m c t) (outsAt0 m c (t.val - 1) (Nat.lt_of_le_of_lt (Nat.sub_le _ _) t.isLt)).1 i).trans ?_
  unfold T3
  exact congrArg (_ + ·) (Finset.sum_congr rfl fun r _ => pay4_blk m c t i r)

/-- A first point of a core leaves this point's masked term in the table block. -/
theorem stepA4 (c : Dev nD) (t : Fin cfg0.N) (h0 : t.val % 25 = 0) (i : Fin 128) (k : Fin 4096) :
    (outsAt0 m c t.val t.isLt).2 (ix3 (0 : Fin 1) i k) = T4 (X m c) (Q m c) (Lb m c) t.val i k := by
  rw [outsAt0_A m c t h0]
  dsimp only
  refine (congrFun (pieceA4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk m c t) (lblk m c t) (qblk m c t))
    (ix3 (0 : Fin 1) i k)).trans ?_
  refine (pay6_at (grid0.coords t) (xblk m c t) (qblk m c t) (lblk m c t) (k0_pay3 (F := Ideal)) i k).trans ?_
  rw [pay3_at, zero_add, gword t, lblk_at, pay4_blk]
  rfl

/-- Any other point adds its masked term to what the point before left there. -/
theorem stepB4 (c : Dev nD) (t : Fin cfg0.N) (h0 : ¬t.val % 25 = 0) (i : Fin 128) (k : Fin 4096) :
    (outsAt0 m c t.val t.isLt).2 (ix3 (0 : Fin 1) i k)
      = (outsAt0 m c (t.val - 1) (Nat.lt_of_le_of_lt (Nat.sub_le _ _) t.isLt)).2 (ix3 (0 : Fin 1) i k)
        + T4 (X m c) (Q m c) (Lb m c) t.val i k := by
  rw [outsAt0_B m c t h0]
  dsimp only
  refine (congrFun (pieceB4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk m c t) (lblk m c t) (qblk m c t)
    (outsAt0 m c (t.val - 1) (Nat.lt_of_le_of_lt (Nat.sub_le _ _) t.isLt)).1
    (outsAt0 m c (t.val - 1) (Nat.lt_of_le_of_lt (Nat.sub_le _ _) t.isLt)).2)
    (ix3 (0 : Fin 1) i k)).trans ?_
  refine (pay6_at (grid0.coords t) (xblk m c t) (qblk m c t) (lblk m c t)
    (outsAt0 m c (t.val - 1) (Nat.lt_of_le_of_lt (Nat.sub_le _ _) t.isLt)).2 i k).trans ?_
  rw [gword t, lblk_at, pay4_blk]
  rfl

/-- THE INVARIANT, partial denominators: after point 25 q + j the block holds the terms of points 25 q … 25 q + j. -/
theorem dpInv (c : Dev nD) (q : ℕ) (i : Fin 128) : ∀ (j : ℕ) (_ : j < 25) (h : 25 * q + j < cfg0.N),
    (outsAt0 m c (25 * q + j) h).1 (ix3 (0 : Fin 1) i (0 : Fin 1))
      = ∑ s ∈ Finset.range (j + 1), T3 (X m c) (Q m c) (25 * q + s) i
  | 0, _, h => by
    rw [Finset.sum_range_one]
    exact stepA3 m c ⟨25 * q + 0, h⟩ (by dsimp only; omega) i
  | j + 1, hj, h => by
    rw [Finset.sum_range_succ, ← dpInv c q i j (by omega) (by omega)]
    exact stepB3 m c ⟨25 * q + (j + 1), h⟩ (by dsimp only; omega) i

/-- THE INVARIANT, partial positive tables. -/
theorem spInv (c : Dev nD) (q : ℕ) (i : Fin 128) (k : Fin 4096) : ∀ (j : ℕ) (_ : j < 25) (h : 25 * q + j < cfg0.N),
    (outsAt0 m c (25 * q + j) h).2 (ix3 (0 : Fin 1) i k)
      = ∑ s ∈ Finset.range (j + 1), T4 (X m c) (Q m c) (Lb m c) (25 * q + s) i k
  | 0, _, h => by
    rw [Finset.sum_range_one]
    exact stepA4 m c ⟨25 * q + 0, h⟩ (by dsimp only; omega) i k
  | j + 1, hj, h => by
    rw [Finset.sum_range_succ, ← spInv c q i k j (by omega) (by omega)]
    exact stepB4 m c ⟨25 * q + (j + 1), h⟩ (by dsimp only; omega) i k

/-- The queue row point 25 p + j streams at position r is row r of class 25 p + j. -/
theorem rowOf_chunk (p : Fin 2) (j : Fin 25) (r : Fin 4096) : rowOf (25 * p.val + j.val) r = col (chunk p j) r := by
  apply Fin.ext
  show ((25 * p.val + j.val) % 50) * 4096 + r.val = (p.val * 25 + j.val) * 4096 + r.val
  have := p.isLt; have := j.isLt
  omega

/-- The last point of core p has gathered the whole of the specification's partial denominator … -/
theorem sum_T3 (x : Fin 128 → Fin 128 → EReal) (q : Fin 204800 → Fin 128 → EReal) (p : Fin 2) (i : Fin 128) :
    ∑ s ∈ Finset.range 25, T3 x q (25 * p.val + s) i = dpSpec x q p i := by
  rw [Finset.sum_range]
  unfold dpSpec T3
  exact Finset.sum_congr rfl fun j _ => Finset.sum_congr rfl fun r _ => by rw [rowOf_chunk]

/-- … and of its partial positive table. -/
theorem sum_T4 (x : Fin 128 → Fin 128 → EReal) (q : Fin 204800 → Fin 128 → EReal) (lab : Fin 128 → BitVec 32) (p : Fin 2)
    (i : Fin 128) (k : Fin 4096) :
    ∑ s ∈ Finset.range 25, T4 x q lab (25 * p.val + s) i k = spSpec x q lab p i k := by
  rw [Finset.sum_range]
  unfold spSpec T4
  refine Finset.sum_congr rfl fun j _ => ?_
  rw [rowOf_chunk]
  have e : 25 * p.val + j.val = (chunk p j).val := by show _ = p.val * 25 + j.val; omega
  rw [e]

end Inv

section Final
variable (m : (ℓ : Loc nD τ sig) → Buf (Elt Ideal) ℓ)

open Cert.Contrast

/-- The two result arrays as the specification has them, index by index. -/
def G3 (c : Dev nD) : FVec Ideal S2x128x1 .f32 := fun y =>
  dpSpec (X m c) (Q m c) ⟨(y 0).val, (y 0).isLt⟩ ⟨(y 1).val, (y 1).isLt⟩
def G4 (c : Dev nD) : FVec Ideal S2x128x4096 .f32 := fun y =>
  spSpec (X m c) (Q m c) (Lb m c) ⟨(y 0).val, (y 0).isLt⟩ ⟨(y 1).val, (y 1).isLt⟩ ⟨(y 2).val, (y 2).isLt⟩

theorem outsAt0_congr (c : Dev nD) (u v : ℕ) (hu : u < cfg0.N) (hv : v < cfg0.N) (e : u = v) :
    outsAt0 m c u hu = outsAt0 m c v hv := by subst e; rfl

theorem ext_blk3 (f g : S1x128x1.Idx → EReal)
    (h : ∀ i : Fin 128, f (ix3 (0 : Fin 1) i (0 : Fin 1)) = g (ix3 (0 : Fin 1) i (0 : Fin 1))) : f = g := by
  funext y
  obtain ⟨u, i, z, rfl⟩ : ∃ (u : Fin 1) (i : Fin 128) (z : Fin 1), y = ix3 u i z := ⟨y 0, y 1, y 2, eq_ix3 y⟩
  obtain rfl : u = 0 := Subsingleton.elim _ _
  obtain rfl : z = 0 := Subsingleton.elim _ _
  exact h i

theorem ext_blk4 (f g : S1x128x4096.Idx → EReal)
    (h : ∀ (i : Fin 128) (k : Fin 4096), f (ix3 (0 : Fin 1) i k) = g (ix3 (0 : Fin 1) i k)) : f = g := by
  funext y
  obtain ⟨u, i, k, rfl⟩ : ∃ (u : Fin 1) (i : Fin 128) (k : Fin 4096), y = ix3 u i k := ⟨y 0, y 1, y 2, eq_ix3 y⟩
  obtain rfl : u = 0 := Subsingleton.elim _ _
  exact h i k

/-- What the last point of a core writes back is that core's block of the specification's partial denominators. -/
theorem flushed3_eq (c : Dev nD) (t : Fin cfg0.N) (hf : (cfg0.win 3).flush t = true) :
    (dats m 0 c).flushed 3 t = ((cfg0.win 3).blk t).view.read (Elt Ideal) (G3 m c) := by
  have hN : t.val < 50 := lt_of_lt_of_eq t.isLt (show cfg0.N = 50 from N_0)
  have h24 : t.val % 25 = 24 := (flush0_3 t).mp hf
  obtain ⟨-, -, -, -, -, -, e0, e1, e2, -⟩ := idx_facts t
  show (cfg0.win 3).cut (grid0.coords t) ((dats m 0 c).after 3 t) = _
  rw [after0_3]
  refine ext_blk3 _ _ fun i => ?_
  show (outsAt0 m c t.val t.isLt).1 (ix3 (0 : Fin 1) i (0 : Fin 1))
    = G3 m c (((cfg0.win 3).blk t).view.emb (ix3 (0 : Fin 1) i (0 : Fin 1)))
  have hp : t.val / 25 < 2 := by omega
  have hemb : ((cfg0.win 3).blk t).view.emb (ix3 (0 : Fin 1) i (0 : Fin 1)) = ix3 (⟨t.val / 25, hp⟩ : Fin 2) i (0 : Fin 1) := by
    funext a; apply Fin.ext
    match a with
    | ⟨0, _⟩ => show win0_3.index t (0 : Fin 3) * 1 + 1 * 0 = t.val / 25; rw [e0]; omega
    | ⟨1, _⟩ => show win0_3.index t (1 : Fin 3) * 128 + 1 * i.val = i.val; rw [e1]; omega
    | ⟨2, _⟩ => show win0_3.index t (2 : Fin 3) * 1 + 1 * 0 = 0; rw [e2]
  rw [hemb]
  show _ = dpSpec (X m c) (Q m c) ⟨t.val / 25, hp⟩ i
  rw [← sum_T3, outsAt0_congr m c t.val (25 * (t.val / 25) + 24) t.isLt (lt_of_lt_of_eq (by omega : 25 * (t.val / 25) + 24 < 50) N_0.symm) (by omega)]
  exact dpInv m c (t.val / 25) i 24 (by omega) _

/-- What the last point of a core writes back is that core's block of the specification's partial positive table. -/
theorem flushed4_eq (c : Dev nD) (t : Fin cfg0.N) (hf : (cfg0.win 4).flush t = true) :
    (dats m 0 c).flushed 4 t = ((cfg0.win 4).blk t).view.read (Elt Ideal) (G4 m c) := by
  have hN : t.val < 50 := lt_of_lt_of_eq t.isLt (show cfg0.N = 50 from N_0)
  have h24 : t.val % 25 = 24 := (flush0_4 t).mp hf
  obtain ⟨-, -, -, -, -, -, -, -, -, e0, e1, e2⟩ := idx_facts t
  show (cfg0.win 4).cut (grid0.coords t) ((dats m 0 c).after 4 t) = _
  rw [after0_4]
  refine ext_blk4 _ _ fun i k => ?_
  show (outsAt0 m c t.val t.isLt).2 (ix3 (0 : Fin 1) i k) = G4 m c (((cfg0.win 4).blk t).view.emb (ix3 (0 : Fin 1) i k))
  have hp : t.val / 25 < 2 := by omega
  have hemb : ((cfg0.win 4).blk t).view.emb (ix3 (0 : Fin 1) i k) = ix3 (⟨t.val / 25, hp⟩ : Fin 2) i k := by
    funext a; apply Fin.ext
    match a with
    | ⟨0, _⟩ => show win0_4.index t (0 : Fin 3) * 1 + 1 * 0 = t.val / 25; rw [e0]; omega
    | ⟨1, _⟩ => show win0_4.index t (1 : Fin 3) * 128 + 1 * i.val = i.val; rw [e1]; omega
    | ⟨2, _⟩ => show win0_4.index t (2 : Fin 3) * 4096 + 1 * k.val = k.val; rw [e2]; omega
  rw [hemb]
  show _ = spSpec (X m c) (Q m c) (Lb m c) ⟨t.val / 25, hp⟩ i k
  rw [← sum_T4, outsAt0_congr m c t.val (25 * (t.val / 25) + 24) t.isLt (lt_of_lt_of_eq (by omega : 25 * (t.val / 25) + 24 < 50) N_0.symm) (by omega)]
  exact spInv m c (t.val / 25) i k 24 (by omega) _

/-- Every entry of the partial-denominator array lies in the block some core's last point writes back. -/
theorem cover3 (y : S2x128x1.Idx) :
    ∃ t : Fin cfg0.N, (cfg0.win 3).flush t = true ∧ y ∈ ((cfg0.win 3).blk t).view.set := by
  have hy0 : (y 0).val < 2 := (y 0).isLt
  have hy1 : (y 1).val < 128 := (y 1).isLt
  have hy2 : (y 2).val < 1 := (y 2).isLt
  have hN : cfg0.N = 50 := N_0
  obtain ⟨t, ht⟩ : ∃ t : Fin cfg0.N, t.val = 25 * (y 0).val + 24 := ⟨⟨25 * (y 0).val + 24, lt_of_lt_of_eq (by omega : 25 * (y 0).val + 24 < 50) hN.symm⟩, rfl⟩
  obtain ⟨-, -, -, -, -, -, e0, e1, e2, -⟩ := idx_facts t
  refine ⟨t, (flush0_3 t).mpr (by omega), ?_⟩
  show y ∈ ((View.whole main_v20_0).slice (win0_3.rect t)).set
  rw [View.set_slice_whole, Rect.mem_set_unit]
  intro a
  match a with
  | ⟨0, _⟩ => show win0_3.index t (0 : Fin 3) * 1 ≤ (y 0).val ∧ (y 0).val < win0_3.index t (0 : Fin 3) * 1 + 1; rw [e0]; omega
  | ⟨1, _⟩ => show win0_3.index t (1 : Fin 3) * 128 ≤ (y 1).val ∧ (y 1).val < win0_3.index t (1 : Fin 3) * 128 + 128; rw [e1]; omega
  | ⟨2, _⟩ => show win0_3.index t (2 : Fin 3) * 1 ≤ (y 2).val ∧ (y 2).val < win0_3.index t (2 : Fin 3) * 1 + 1; rw [e2]; omega

/-- Every entry of the partial-positive-table array lies in the block some core's last point writes back. -/
theorem cover4 (y : S2x128x4096.Idx) :
    ∃ t : Fin cfg0.N, (cfg0.win 4).flush t = true ∧ y ∈ ((cfg0.win 4).blk t).view.set := by
  have hy0 : (y 0).val < 2 := (y 0).isLt
  have hy1 : (y 1).val < 128 := (y 1).isLt
  have hy2 : (y 2).val < 4096 := (y 2).isLt
  have hN : cfg0.N = 50 := N_0
  obtain ⟨t, ht⟩ : ∃ t : Fin cfg0.N, t.val = 25 * (y 0).val + 24 := ⟨⟨25 * (y 0).val + 24, lt_of_lt_of_eq (by omega : 25 * (y 0).val + 24 < 50) hN.symm⟩, rfl⟩
  obtain ⟨-, -, -, -, -, -, -, -, -, e0, e1, e2⟩ := idx_facts t
  refine ⟨t, (flush0_4 t).mpr (by omega), ?_⟩
  show y ∈ ((View.whole main_v20_1).slice (win0_4.rect t)).set
  rw [View.set_slice_whole, Rect.mem_set_unit]
  intro a
  match a with
  | ⟨0, _⟩ => show win0_4.index t (0 : Fin 3) * 1 ≤ (y 0).val ∧ (y 0).val < win0_4.index t (0 : Fin 3) * 1 + 1; rw [e0]; omega
  | ⟨1, _⟩ => show win0_4.index t (1 : Fin 3) * 128 ≤ (y 1).val ∧ (y 1).val < win0_4.index t (1 : Fin 3) * 128 + 128; rw [e1]; omega
  | ⟨2, _⟩ => show win0_4.index t (2 : Fin 3) * 4096 ≤ (y 2).val ∧ (y 2).val < win0_4.index t (2 : Fin 3) * 4096 + 4096; rw [e2]; omega

/-- THE LAUNCH'S RESULTS: the two arrays end holding the specification's partial sums. -/
theorem dpArr_final (c : Dev nD) : dpArr m c = G3 m c :=
  (dats m 0 c).arrAt_eq_of_cover 3 (G3 m c) (flushed3_eq m c) cover3

theorem spArr_final (c : Dev nD) : spArr m c = G4 m c :=
  (dats m 0 c).arrAt_eq_of_cover 4 (G4 m c) (flushed4_eq m c) cover4

theorem dpArr_eq (c : Dev nD) (p : Fin 2) (i : Fin 128) :
    dpArr m c (ix3 p i (0 : Fin 1))
      = dpSpec (fun i d => xArr m c (ix2 i d)) (fun r d => qArr m c (ix2 r d)) p i :=
  (congrFun (dpArr_final m c) (ix3 p i (0 : Fin 1))).trans rfl

theorem spArr_eq (c : Dev nD) (p : Fin 2) (i : Fin 128) (k : Fin 4096) :
    spArr m c (ix3 p i k)
      = spSpec (fun i d => xArr m c (ix2 i d)) (fun r d => qArr m c (ix2 r d)) (fun i => labArr m c (ix2 i (0 : Fin 1))) p i k :=
  (congrFun (spArr_final m c) (ix3 p i k)).trans rfl

end Final

end Cert.KernelIdeal.Region
end
-- ==== Proof.KerTerm.lean ====
/-
  The host side of the kernel program as pure functions of its inputs and of the launch's two results: one `let`
  per operation, in the program's order, with the program's own shape facts.

  `fnorm` normalises the rows of a 128×128 matrix (divide by max(‖row‖, 1e-12)); `lposCol` is the column of row-wise
  dot products of two normalised matrices; `lab2` views the label vector as a column; `tail` is everything after the
  launch: the two cores' partial denominators added to the similarity column, the two partial positive tables added,
  the queue weights gathered at each sample's class, and the loss finished.
-/
import proofs.«406886_j65506841198977_2_alg».proof.KernelIdeal

noncomputable section

namespace Cert.KernelIdeal.Term

open Cert.KernelIdeal Idealize.ShloMosaic

variable {F : FTy → Type} [FloatOps F] [Facts]
open Facts₀ Facts

/-- %0 … %7 (equally %8 … %15): each row divided by the larger of its Euclidean norm and 1e-12. -/
def fnorm (a : FVec F S128x128 .f32) : FVec F S128x128 .f32 :=
  let main_v0 : FVec F S128x128 .f32 := mulf a a
  let main_cst : FVec F S_ .f32 := constant S_ .f32 0x00000000#32
  let main_v1 : FVec F S128 .f32 := (fun x v => Host.reduceAdd x v reducesTo_S128x128_S128_d1 h_S_) main_v0 main_cst
  let main_v2 : FVec F S128x1 .f32 := broadcastInDim S128x1 ![0] bcast_S128_S128x1_0 main_v1
  let main_v3 : FVec F S128x1 .f32 := Host.sqrt main_v2
  let main_cst_0 : FVec F S_ .f32 := constant S_ .f32 0x2B8CBCCC#32
  let main_v4 : FVec F S128x1 .f32 := broadcastInDim S128x1 ![] bcast_S_S128x1 main_cst_0
  let main_v5 : FVec F S128x1 .f32 := maximumf main_v3 main_v4
  let main_v6 : FVec F S128x128 .f32 := broadcastInDim S128x128 ![0, 1] bcast_S128x1_S128x128_0_1 main_v5
  let main_v7 : FVec F S128x128 .f32 := Host.divf a main_v6
  main_v7

/-- %16, %cst_3, %17, %18: the row-wise dot products of the two normalised matrices, as a column. -/
def lposCol (a0 a1 : FVec F S128x128 .f32) : FVec F S128x1 .f32 :=
  let main_v16 : FVec F S128x128 .f32 := mulf (fnorm a0) (fnorm a1)
  let main_cst_3 : FVec F S_ .f32 := constant S_ .f32 0x00000000#32
  let main_v17 : FVec F S128 .f32 := (fun x v => Host.reduceAdd x v reducesTo_S128x128_S128_d1 h_S_) main_v16 main_cst_3
  let main_v18 : FVec F S128x1 .f32 := broadcastInDim S128x1 ![0] bcast_S128_S128x1_0 main_v17
  main_v18

/-- %19: the label vector as a 128×1 column. -/
def lab2 (a5 : IVec S128 32) : IVec S128x1 32 :=
  fun i => shapeCast S128x1 a5 shapeCasts_S128_S128x1 i

/-- %21 … %26: the similarity column plus core 0's partial denominators plus core 1's. -/
def denomCol (v18 : FVec F S128x1 .f32) (dpA : FVec F S2x128x1 .f32) : FVec F S128x1 .f32 :=
  let main_v21 : FVec F S1x128x1 .f32 := (extractStridedSlice S1x128x1 ![0, 0, 0] · slices_S2x128x1_S1x128x1_0_0_0) dpA
  let main_v22 : FVec F S128x1 .f32 := fun i => shapeCast S128x1 main_v21 shapeCasts_S1x128x1_S128x1 i
  let main_v23 : FVec F S128x1 .f32 := addf v18 main_v22
  let main_v24 : FVec F S1x128x1 .f32 := (extractStridedSlice S1x128x1 ![1, 0, 0] · slices_S2x128x1_S1x128x1_1_0_0) dpA
  let main_v25 : FVec F S128x1 .f32 := fun i => shapeCast S128x1 main_v24 shapeCasts_S1x128x1_S128x1 i
  let main_v26 : FVec F S128x1 .f32 := addf main_v23 main_v25
  main_v26

/-- %27 … %31: core 0's partial positive table plus core 1's. -/
def sposTab (spA : FVec F S2x128x4096 .f32) : FVec F S128x4096 .f32 :=
  let main_v27 : FVec F S1x128x4096 .f32 := (extractStridedSlice S1x128x4096 ![0, 0, 0] · slices_S2x128x4096_S1x128x4096_0_0_0) spA
  let main_v28 : FVec F S128x4096 .f32 := fun i => shapeCast S128x4096 main_v27 shapeCasts_S1x128x4096_S128x4096 i
  let main_v29 : FVec F S1x128x4096 .f32 := (extractStridedSlice S1x128x4096 ![1, 0, 0] · slices_S2x128x4096_S1x128x4096_1_0_0) spA
  let main_v30 : FVec F S128x4096 .f32 := fun i => shapeCast S128x4096 main_v29 shapeCasts_S1x128x4096_S128x4096 i
  let main_v31 : FVec F S128x4096 .f32 := addf main_v28 main_v30
  main_v31

/-- %c … %38: the label, wrapped by 50 when negative, as a column of start indices. -/
def startCol (a5 : IVec S128 32) : IVec S128x1 32 :=
  let main_c : IVec S_ 32 := constantI S_ 32 0#32
  let main_v33 : IVec S128 32 := broadcastInDim S128 ![] bcast_S_S128 main_c
  let main_v34 : IVec S128 1 := cmpi .slt a5 main_v33
  let main_c_4 : IVec S_ 32 := constantI S_ 32 50#32
  let main_v35 : IVec S128 32 := broadcastInDim S128 ![] bcast_S_S128 main_c_4
  let main_v36 : IVec S128 32 := addi a5 main_v35
  let main_v37 : IVec S128 32 := select main_v34 main_v36 a5
  let main_v38 : IVec S128x1 32 := broadcastInDim S128x1 ![0] bcast_S128_S128x1_0 main_v37
  main_v38

/-- %32, %39: the queue weights viewed as 50 classes of 4096, and each sample's class row gathered. -/
def qwTab (a4 : FVec F S204800x1 .f32) (a5 : IVec S128 32) : FVec F S128x4096 .f32 :=
  let main_v32 : FVec F S50x4096 .f32 := fun i => shapeCast S50x4096 a4 shapeCasts_S204800x1_S50x4096 i
  let main_v39 : FVec F S128x4096 .f32 := (fun x i => Host.gather gather_S50x4096_S128x1_S128x4096_1_0_n_n_0_1_14096 x i) main_v32 (startCol a5)
  main_v39

/-- %40 … %50: per sample, the weighted sum over its class's 4096 rows of −log(positive / denominator + ε). -/
def posCol (a2 : FVec F S128x1 .f32) (main_v26 : FVec F S128x1 .f32) (main_v31 main_v39 : FVec F S128x4096 .f32) :
    FVec F S128x1 .f32 :=
  let main_v40 : FVec F S128x4096 .f32 := broadcastInDim S128x4096 ![0, 1] bcast_S128x1_S128x4096_0_1 main_v26
  let main_v41 : FVec F S128x4096 .f32 := Host.divf main_v31 main_v40
  let main_cst_5 : FVec F S_ .f32 := constant S_ .f32 0x322BCC77#32
  let main_v42 : FVec F S128x4096 .f32 := broadcastInDim S128x4096 ![] bcast_S_S128x4096 main_cst_5
  let main_v43 : FVec F S128x4096 .f32 := addf main_v41 main_v42
  let main_v44 : FVec F S128x4096 .f32 := Host.log main_v43
  let main_v45 : FVec F S128x4096 .f32 := Host.negf main_v44
  let main_v46 : FVec F S128x4096 .f32 := broadcastInDim S128x4096 ![0, 1] bcast_S128x1_S128x4096_0_1 a2
  let main_v47 : FVec F S128x4096 .f32 := mulf main_v46 main_v39
  let main_v48 : FVec F S128x4096 .f32 := mulf main_v47 main_v45
  let main_cst_6 : FVec F S_ .f32 := constant S_ .f32 0x00000000#32
  let main_v49 : FVec F S128 .f32 := (fun x v => Host.reduceAdd x v reducesTo_S128x4096_S128_d1 h_S_) main_v48 main_cst_6
  let main_v50 : FVec F S128x1 .f32 := broadcastInDim S128x1 ![0] bcast_S128_S128x1_0 main_v49
  main_v50

/-- %51 … %61: the twin term, the per-sample quotient by 4097, the sum over samples, the quotient by 128. -/
def fin (v18 a2 main_v26 main_v50 : FVec F S128x1 .f32) : FVec F S_ .f32 :=
  let main_v51 : FVec F S128x1 .f32 := Host.divf v18 main_v26
  let main_cst_7 : FVec F S_ .f32 := constant S_ .f32 0x322BCC77#32
  let main_v52 : FVec F S128x1 .f32 := broadcastInDim S128x1 ![] bcast_S_S128x1 main_cst_7
  let main_v53 : FVec F S128x1 .f32 := addf main_v51 main_v52
  let main_v54 : FVec F S128x1 .f32 := Host.log main_v53
  let main_v55 : FVec F S128x1 .f32 := Host.negf main_v54
  let main_v56 : FVec F S128x1 .f32 := mulf a2 main_v55
  let main_v57 : FVec F S128x1 .f32 := addf main_v56 main_v50
  let main_cst_8 : FVec F S_ .f32 := constant S_ .f32 0x45800800#32
  let main_v58 : FVec F S128x1 .f32 := broadcastInDim S128x1 ![] bcast_S_S128x1 main_cst_8
  let main_v59 : FVec F S128x1 .f32 := Host.divf main_v57 main_v58
  let main_cst_9 : FVec F S_ .f32 := constant S_ .f32 0x00000000#32
  let main_v60 : FVec F S_ .f32 := (fun x v => Host.reduceAdd x v reducesTo_S128x1_S_d0_1 h_S_) main_v59 main_cst_9
  let main_cst_10 : FVec F S_ .f32 := constant S_ .f32 0x43000000#32
  let main_v61 : FVec F S_ .f32 := Host.divf main_v60 main_cst_10
  main_v61

/-- %21 … %61 over the launch's two results. -/
def tail (v18 : FVec F S128x1 .f32) (a2 : FVec F S128x1 .f32) (a4 : FVec F S204800x1 .f32) (a5 : IVec S128 32)
    (dpA : FVec F S2x128x1 .f32) (spA : FVec F S2x128x4096 .f32) : FVec F S_ .f32 :=
  let main_v26 : FVec F S128x1 .f32 := denomCol v18 dpA
  let main_v31 : FVec F S128x4096 .f32 := sposTab spA
  let main_v39 : FVec F S128x4096 .f32 := qwTab a4 a5
  let main_v50 : FVec F S128x1 .f32 := posCol a2 main_v26 main_v31 main_v39
  fin v18 a2 main_v26 main_v50

end Cert.KernelIdeal.Term

end
-- ==== Proof.KerRun.lean ====
/-
  The kernel program's run with its result named.

  Before the launch the program normalises the rows of the two activation matrices, takes their row-wise dot products
  as a column, and views the label vector as a column; the launch's windows read the first normalised matrix, the label
  column and the queue. After the launch the program adds the two cores' partial denominators to the dot-product
  column, adds the two partial positive tables, gathers each sample's class row of the queue weights and finishes the
  loss. Here each of these is identified with its pure function of the inputs (`Term.fnorm`, `Term.lposCol`,
  `Term.lab2`, `Term.tail`): what the launch finds in its input arrays, and what the scalar result holds once every
  execution has ended — `Term.tail` of the dot-product column, the sample weights, the queue weights, the labels and
  the two arrays the launch leaves — with every argument array unchanged.
-/
import proofs.«406886_j65506841198977_2_alg».proof.Proof.Gen.KernelIdeal.Frame
import proofs.«406886_j65506841198977_2_alg».proof.Proof.KerTerm
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.HandRun

open Cert.KernelIdeal Cert.KernelIdeal.Gen

variable {F : FTy → Type} [FloatOps F]
variable (m : (ℓ : Loc nD τ sig) → Buf (Elt F) ℓ) (ρ : Dev nD → PrngReg)

/-! ## What the launch finds -/

/-- The first window's array at the launch: the first activation matrix with each row divided by the larger of its
    Euclidean norm and 1e-12. -/
theorem v7_eq (c : Dev nD) : V m c main_v7 = Term.fnorm (m ((c.tc : Thread nD τ).loc main_arg0)) := by
  show StableHlo.after hostOps0 (fun b => m (c, b)) (Proc.devRef .tc main_v7) = _
  after_results
  rfl

/-- The second window's array at the launch: the label vector as a 128×1 column. -/
theorem v19_eq (c : Dev nD) : V m c main_v19 = Term.lab2 (m ((c.tc : Thread nD τ).loc main_arg5)) := by
  show StableHlo.after hostOps0 (fun b => m (c, b)) (Proc.devRef .tc main_v19) = _
  after_results
  rfl

/-- The third window's array at the launch: the queue as given. -/
theorem arg3_eq (c : Dev nD) : V m c main_arg3 = m ((c.tc : Thread nD τ).loc main_arg3) := V_main_arg3 m c

/-- The column of row-wise dot products of the two normalised matrices, as the launch leaves it untouched for the
    operations after it. -/
theorem v18_eq (c : Dev nD) : V m c main_v18
    = Term.lposCol (m ((c.tc : Thread nD τ).loc main_arg0)) (m ((c.tc : Thread nD τ).loc main_arg1)) := by
  show StableHlo.after hostOps0 (fun b => m (c, b)) (Proc.devRef .tc main_v18) = _
  after_results_simp
  rfl

/-! ## The operations after the launch -/

/-- From ANY contents `W` of the buffers, the scalar the operations after the launch end with is `Term.tail` of what
    `W` holds at the six buffers they read: the dot-product column, the sample weights, the queue weights, the labels,
    and the launch's two result arrays. -/
theorem tail_of (W : Valuation τ sig (Elt F)) :
    StableHlo.after hostOps1 W (Proc.devRef .tc main_v61)
      = Term.tail (W (Proc.devRef .tc main_v18)) (W (Proc.devRef .tc main_arg2)) (W (Proc.devRef .tc main_arg4))
          (W (Proc.devRef .tc main_arg5)) (W (Proc.devRef .tc main_v20_0)) (W (Proc.devRef .tc main_v20_1)) := by
  after_results_simp
  rfl

/-- `Term.tail` respects equality in each of its six arguments. -/
theorem tail_congr {v v' a2 a2' : FVec F S128x1 .f32} {a4 a4' : FVec F S204800x1 .f32} {a5 a5' : IVec S128 32}
    {d d' : FVec F S2x128x1 .f32} {s s' : FVec F S2x128x4096 .f32}
    (h1 : v = v') (h2 : a2 = a2') (h3 : a4 = a4') (h4 : a5 = a5') (h5 : d = d') (h6 : s = s') :
    Term.tail v a2 a4 a5 d s = Term.tail v' a2' a4' a5' d' s' := by
  subst h1 h2 h3 h4 h5 h6; rfl

/-- The scalar result after the whole program: the contents the operations after the launch start from are the
    entry contents with the launch's arrays replaced by what the launch leaves; the two result arrays are read there,
    and the four other buffers read are no array of the launch, so they hold what the operations before the launch left
    (the dot-product column) or what the program was given (the weights and the labels). -/
theorem tail_eq (c : Dev nD) :
    Pipeline.afterTail₀ cfgs (dats m) 0 (V0 m) [hostOps1] c main_v61
      = Term.tail (Term.lposCol (m ((c.tc : Thread nD τ).loc main_arg0)) (m ((c.tc : Thread nD τ).loc main_arg1)))
          (m ((c.tc : Thread nD τ).loc main_arg2)) (m ((c.tc : Thread nD τ).loc main_arg4)) (m ((c.tc : Thread nD τ).loc main_arg5))
          ((dats m 0 c).arrAt 3 cfg0.N) ((dats m 0 c).arrAt 4 cfg0.N) := by
  unfold Pipeline.afterTail₀
  refine (tail_of (F := F) _).trans ?_
  refine tail_congr ?_ ?_ ?_ ?_ ?_ ?_
  · exact (Pipeline.withArrays_of_ne _ c (V0 m c) _ main_v18 (by exact (by decide : ∀ w, Pipeline.arrRef spec0 w ≠ main_v18))).trans (v18_eq m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)
  · exact Pipeline.withArrays_arr spec0 launch0.win.arr_inj c _ _ 3
  · exact Pipeline.withArrays_arr spec0 launch0.win.arr_inj c _ _ 4

/-! ## The run -/

/-- From any memory with zero counters every weakly fair execution of the program terminates, and on every core the
    scalar result is `Term.tail` of the dot-product column, the sample weights, the queue weights, the labels and the
    two arrays the launch leaves (its partial denominators and its partial positive tables), while each of the six
    argument arrays ends as it was given. -/
theorem run : θ_run defs (onTc (τ := τ) (main (F := F))) ⟨m, fun _ => 0, ρ⟩ (fun r => ∀ c : Dev nD,
      r.2.mem ((c.tc : Thread nD τ).loc main_v61)
        = Term.tail (Term.lposCol (m ((c.tc : Thread nD τ).loc main_arg0)) (m ((c.tc : Thread nD τ).loc main_arg1)))
            (m ((c.tc : Thread nD τ).loc main_arg2)) (m ((c.tc : Thread nD τ).loc main_arg4)) (m ((c.tc : Thread nD τ).loc main_arg5))
            ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v61 (Pipeline.mem_restRefs_of main_v61 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.HandRun

end
-- ==== Proof.KerValue.lean ====
/-
  The kernel program's host side, read at the extended reals, stage by stage and at coordinates.

  Each stage of the tail is read at a row `i` (and a position `k` inside a class): the denominator column is the
  similarity plus the two partial denominators; the positive table is the sum of the two partial tables; the label of
  a sample, when it is a class number `g < 50`, is not negative, so the wrap by 50 leaves it alone and the clamp into
  `[0, 49]` returns `g`; the gather then reads row `g` of the queue weights viewed as 50 × 4096, that is the flat
  weight at `g · 4096 + k`; the row sum over 4096 positions and the sum over 128 samples start from zero. Put together,
  the tail is the loss written the kernel's way over the two results of the launch.
-/
import proofs.«406886_j65506841198977_2_alg».proof.Proof.KerTerm
import proofs.«406886_j65506841198977_2_alg».proof.Proof.Gen.KernelIdeal
import proofs.«406886_j65506841198977_2_alg».proof.Proof.Contrast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx
open scoped BigOperators

/-! ## Layout operations of this program read at coordinates -/

section Layout
variable {α : Type}

/-- A vector broadcast to a column reads, at row `i`, its element `i`. -/
theorem bcast_col_apply {n : ℕ} (h : (⟨1, ![n]⟩ : Shape).BroadcastsInDim ⟨2, ![n, 1]⟩ (![0] : Fin 1 → Fin 2))
    (x : (⟨1, ![n]⟩ : Shape).Idx → α) (i : Fin n) :
    broadcastInDim ⟨2, ![n, 1]⟩ ![0] h x (ix2 i (0 : Fin 1)) = x (ix1 i) :=
  broadcastInDim_apply _ h x _ _ (fun a => match a with
    | ⟨0, _⟩ => by
      show i.val = if n = 1 then 0 else i.val
      split
      · have := i.isLt; omega
      · rfl)

/-- A column broadcast along rows reads, at `(i, k)`, its element `(i, 0)`. -/
theorem bcast_row_apply {n m : ℕ} (h : (⟨2, ![n, 1]⟩ : Shape).BroadcastsInDim ⟨2, ![n, m]⟩ (![0, 1] : Fin 2 → Fin 2))
    (x : (⟨2, ![n, 1]⟩ : Shape).Idx → α) (i : Fin n) (k : Fin m) :
    broadcastInDim ⟨2, ![n, m]⟩ ![0, 1] h x (ix2 i k) = x (ix2 i (0 : Fin 1)) :=
  broadcastInDim_apply _ h x _ _ (fun a => match a with
    | ⟨0, _⟩ => by
      show i.val = if n = 1 then 0 else i.val
      split
      · have := i.isLt; omega
      · rfl
    | ⟨1, _⟩ => by
      show 0 = if (1 : ℕ) = 1 then 0 else k.val
      rfl)

/-- A scalar broadcast reads its one element everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x _ _ (fun a => a.elim0)

/-- The leading-axis slice `[p : p + 1, :, :]` reads, at `(0, i, k)`, the operand at `(p, i, k)`. -/
theorem slice_lead_apply {n0 n1 n2 : ℕ} (off : Fin 3 → ℕ) (x : (⟨3, ![n0, n1, n2]⟩ : Shape).Idx → α)
    (h : (⟨3, ![n0, n1, n2]⟩ : Shape).Slices off ⟨3, ![1, n1, n2]⟩) (p : Fin n0) (i : Fin n1) (k : Fin n2)
    (h0 : off 0 = p.val) (h1 : off 1 = 0) (h2 : off 2 = 0) :
    extractStridedSlice ⟨3, ![1, n1, n2]⟩ off x h (ix3 (0 : Fin 1) i k) = x (ix3 p i k) :=
  extractStridedSlice_apply off x h _ _ (fun a => match a with
    | ⟨0, _⟩ => by show p.val = off 0 + 0; omega
    | ⟨1, _⟩ => by show i.val = off 1 + i.val; omega
    | ⟨2, _⟩ => by show k.val = off 2 + k.val; omega)

/-- The slice `[p : p + 1, :, :]` with its unit axis dropped reads, at `(i, k)`, the operand at `(p, i, k)`. -/
theorem slab_apply {n0 n1 n2 : ℕ} (off : Fin 3 → ℕ) (x : (⟨3, ![n0, n1, n2]⟩ : Shape).Idx → α)
    (h : (⟨3, ![n0, n1, n2]⟩ : Shape).Slices off ⟨3, ![1, n1, n2]⟩)
    (hc : (⟨3, ![1, n1, n2]⟩ : Shape).ShapeCasts ⟨2, ![n1, n2]⟩) (p : Fin n0) (i : Fin n1) (k : Fin n2)
    (h0 : off 0 = p.val) (h1 : off 1 = 0) (h2 : off 2 = 0) :
    shapeCast ⟨2, ![n1, n2]⟩ (extractStridedSlice ⟨3, ![1, n1, n2]⟩ off x h) hc (ix2 i k) = x (ix3 p i k) :=
  (shapeCast_1ab_ab_apply _ hc i k).trans (slice_lead_apply off x h p i k h0 h1 h2)

end Layout

/-! ## The label column -/

/-- The label column at row `i` is label `i`. -/
theorem lab2_apply (a5 : IVec S128 32) (i : Fin 128) : Term.lab2 a5 (ix2 i 0) = a5 (ix1 i) :=
  shapeCast_apply a5 _ _ _ (by
    rw [Shape.rowMajor_val_one, Shape.rowMajor_val_two]
    show i.val = i.val * 1 + 0
    omega)

/-! ## The similarity column -/

/-- The similarity column at row `i` is entry `i` of the row-wise sum of the product of the two normalised matrices. -/
theorem lposCol_apply (a0 a1 : FVec Ideal S128x128 .f32) (i : Fin 128) :
    Term.lposCol (F := Ideal) a0 a1 (ix2 i 0)
      = Host.reduceAdd (mulf (Term.fnorm a0) (Term.fnorm a1)) (constant S_ .f32 0x00000000#32)
          Facts₀.reducesTo_S128x128_S128_d1 Facts₀.h_S_ (ix1 i) := by
  unfold Term.lposCol
  dsimp only
  rw [bcast_col_apply]

/-! ## The denominators and the positive table -/

/-- The denominator column at row `i`: the similarity plus core 0's partial plus core 1's. -/
theorem denomCol_apply (v18 : FVec Ideal S128x1 .f32) (dpA : FVec Ideal S2x128x1 .f32) (i : Fin 128) :
    Term.denomCol (F := Ideal) v18 dpA (ix2 i 0) = (v18 (ix2 i 0) + dpA (ix3 0 i 0)) + dpA (ix3 1 i 0) := by
  unfold Term.denomCol
  dsimp only
  rw [addf_apply, addf_apply, slab_apply _ dpA _ _ (0 : Fin 2) i (0 : Fin 1) rfl rfl rfl,
    slab_apply _ dpA _ _ (1 : Fin 2) i (0 : Fin 1) rfl rfl rfl]

/-- The positive table at `(i, k)`: core 0's partial plus core 1's. -/
theorem sposTab_apply (spA : FVec Ideal S2x128x4096 .f32) (i : Fin 128) (k : Fin 4096) :
    Term.sposTab (F := Ideal) spA (ix2 i k) = spA (ix3 0 i k) + spA (ix3 1 i k) := by
  unfold Term.sposTab
  dsimp only
  rw [addf_apply, slab_apply _ spA _ _ (0 : Fin 2) i k rfl rfl rfl, slab_apply _ spA _ _ (1 : Fin 2) i k rfl rfl rfl]

/-! ## The two sums -/

/-- The sum along a row of a 128×4096 table, from a zero initial value. -/
theorem rowsum_apply (x : FVec Ideal S128x4096 .f32) (h' : S128x4096.ReducesTo [1] S128) (hu : 0 < S_.numel) (i : Fin 128) :
    Host.reduceAdd x (constant S_ .f32 0x00000000#32) h' hu (ix1 i) = ∑ k : Fin 4096, x (ix2 i k) := by
  have h : S128x4096.Reduces [1] S128 := by decide
  show Ideal.hostReduceAdd h' x (Ideal.ofBits .f32 0x00000000#32) (ix1 i) = _
  rw [Ideal.hostReduceAdd_single h' h, Ideal.ofBits_zero_f32, zero_add]
  show ∑ k : Fin 4096, x (h.lift (ix1 i) k) = _
  refine Finset.sum_congr rfl fun k _ => congrArg x ?_
  funext a
  match a with
  | ⟨0, _⟩ => exact Fin.ext rfl
  | ⟨1, _⟩ => exact Fin.ext rfl

/-- The sum over both axes of a 128×1 column, from a zero initial value, is the sum over its 128 rows. -/
theorem colsum_apply (x : FVec Ideal S128x1 .f32) (h' : S128x1.ReducesTo [0, 1] S_) (hu : 0 < S_.numel) (j : S_.Idx) :
    Host.reduceAdd x (constant S_ .f32 0x00000000#32) h' hu j = ∑ i : Fin 128, x (ix2 i 0) := by
  show Ideal.hostReduceAdd h' x (Ideal.ofBits .f32 0x00000000#32) j = _
  rw [Ideal.hostReduceAdd_total h' (fun b => b.elim0), Ideal.ofBits_zero_f32, zero_add]
  show ∑ idx : (⟨2, ![128, 1]⟩ : Shape).Idx, x idx = _
  rw [sum_idx2]
  refine Finset.sum_congr rfl fun i _ => ?_
  rw [Fin.sum_univ_one]

/-! ## The host's pointwise operations at an index -/

section HostAt
variable {s : Shape} {φ : FTy}
/-- The host's quotient at an index is the quotient of the elements. -/
theorem hdivf_apply (a b : FVec Ideal s φ) (i : s.Idx) : Host.divf a b i = Ideal.div (a i) (b i) := rfl
/-- The host's logarithm at an index is the logarithm of the element. -/
theorem hlog_apply (a : FVec Ideal s φ) (i : s.Idx) : Host.log a i = Ideal.log (a i) := rfl
/-- The host's negation at an index is the negation of the element. -/
theorem hnegf_apply (a : FVec Ideal s φ) (i : s.Idx) : Host.negf a i = -(a i) := rfl
end HostAt

/-! ## The positive column and the finish -/

/-- The positive column at row `i`: over the 4096 positions, weight times gathered weight times `-log (s / D + ε)`. -/
theorem posCol_apply (a2 v26 : FVec Ideal S128x1 .f32) (v31 v39 : FVec Ideal S128x4096 .f32) (i : Fin 128) :
    Term.posCol (F := Ideal) a2 v26 v31 v39 (ix2 i 0)
      = ∑ k : Fin 4096, (a2 (ix2 i 0) * v39 (ix2 i k))
          * Cert.Contrast.negLog (v31 (ix2 i k)) (v26 (ix2 i 0)) := by
  unfold Term.posCol
  dsimp only
  rw [bcast_col_apply, rowsum_apply]
  refine Finset.sum_congr rfl fun k _ => ?_
  rw [mulf_apply, mulf_apply, bcast_row_apply, hnegf_apply, hlog_apply, addf_apply, hdivf_apply, bcast_row_apply,
    bcast_scalar_apply, constant_apply]
  rfl

/-- The finish: per sample the twin term plus the positive term over 4097, summed over samples, over 128. -/
theorem fin_apply (v18 a2 v26 v50 : FVec Ideal S128x1 .f32) (j : S_.Idx) :
    Term.fin (F := Ideal) v18 a2 v26 v50 j
      = Ideal.div (∑ i : Fin 128, Ideal.div
          (a2 (ix2 i 0) * Cert.Contrast.negLog (v18 (ix2 i 0)) (v26 (ix2 i 0)) + v50 (ix2 i 0)) Cert.Contrast.nQ)
          Cert.Contrast.nB := by
  unfold Term.fin
  dsimp only
  rw [hdivf_apply, colsum_apply, constant_apply]
  unfold Cert.Contrast.nB
  refine congrArg (fun s => Ideal.div s (Ideal.ofBits .f32 0x43000000#32)) (Finset.sum_congr rfl fun i _ => ?_)
  rw [hdivf_apply, addf_apply, mulf_apply, hnegf_apply, hlog_apply, addf_apply, hdivf_apply, bcast_scalar_apply,
    bcast_scalar_apply, constant_apply, constant_apply]
  rfl

/-! ## A class label as a start index -/

/-- A class number below 50, as a 32-bit word, reads as itself when read signed. -/
theorem toInt_ofNat_class (g : ℕ) (hg : g < 50) : (BitVec.ofNat 32 g).toInt = (g : ℤ) := by
  have hm : g % 2 ^ 32 = g := Nat.mod_eq_of_lt (by omega)
  rw [BitVec.toInt_eq_toNat_of_lt (by rw [BitVec.toNat_ofNat, hm]; omega), BitVec.toNat_ofNat, hm]

/-- So it is not negative: the signed comparison with zero answers no. -/
theorem cmpi_slt_zero_class (g : ℕ) (hg : g < 50) : IntOp.cmpi .slt (BitVec.ofNat 32 g) 0#32 = 0#1 := by
  show BitVec.ofBool ((BitVec.ofNat 32 g).slt 0#32) = 0#1
  rw [BitVec.slt_eq_decide, toInt_ofNat_class g hg, BitVec.toInt_zero, decide_eq_false (by omega)]
  rfl

/-- An integer comparison at an index compares the elements. -/
theorem icmpi_apply {s : Shape} {w : ℕ} (p : CmpIPredicate) (a b : IVec s w) (i : s.Idx) :
    cmpi p a b i = IntOp.cmpi p (a i) (b i) := rfl

/-- The start column at row `i`, for a label that is a class number: the label itself. -/
theorem startCol_apply (a5 : IVec S128 32) (g : ℕ) (hg : g < 50) (i : Fin 128) (h : a5 (ix1 i) = BitVec.ofNat 32 g) :
    Term.startCol a5 (ix2 i 0) = BitVec.ofNat 32 g := by
  unfold Term.startCol
  dsimp only
  rw [bcast_col_apply, select_apply, icmpi_apply, bcast_scalar_apply, constantI_apply, h, cmpi_slt_zero_class g hg,
    select_zero]

/-! ## The gather -/

/-- The gather of this program at `(i, k)`: row (the start index of sample `i`, read signed and clamped into
    `[0, 49]`), column `k`, of the 50×4096 operand. -/
theorem gather_row_apply {α : Type} (x : S50x4096.Idx → α) (idx : IVec S128x1 32) (i : Fin 128) (k : Fin 4096) :
    Host.gather gather_S50x4096_S128x1_S128x4096_1_0_n_n_0_1_14096 x idx (ix2 i k)
      = x (ix2 (⟨min (idx (ix2 i 0)).toInt.toNat 49, by omega⟩ : Fin 50) k) := by
  unfold Host.gather
  congr 1
  funext a
  refine Fin.ext ?_
  match a with
  | ⟨0, _⟩ =>
    show gather_S50x4096_S128x1_S128x4096_1_0_n_n_0_1_14096.start (ix2 i k) idx 0
        + gather_S50x4096_S128x1_S128x4096_1_0_n_n_0_1_14096.batchCoord (ix2 i k) 0
        + gather_S50x4096_S128x1_S128x4096_1_0_n_n_0_1_14096.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x4096_S128x1_S128x4096_1_0_n_n_0_1_14096.startIndexMap from
      List.mem_singleton.mpr rfl)]
    have hsi : gather_S50x4096_S128x1_S128x4096_1_0_n_n_0_1_14096.siIdx (ix2 i k)
        ⟨List.idxOf (0 : Fin 2) gather_S50x4096_S128x1_S128x4096_1_0_n_n_0_1_14096.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S50x4096_S128x1_S128x4096_1_0_n_n_0_1_14096.start (ix2 i k) idx 1
        + gather_S50x4096_S128x1_S128x4096_1_0_n_n_0_1_14096.batchCoord (ix2 i k) 1
        + gather_S50x4096_S128x1_S128x4096_1_0_n_n_0_1_14096.offCoord (ix2 i k) 1 = k.val
    have hs : gather_S50x4096_S128x1_S128x4096_1_0_n_n_0_1_14096.start (ix2 i k) idx 1 = 0 := by
      unfold GatherDims.start
      rw [dif_neg (show (1 : Fin 2) ∉ gather_S50x4096_S128x1_S128x4096_1_0_n_n_0_1_14096.startIndexMap from by
        show (1 : Fin 2) ∉ [0]
        decide)]
    have hk : (1 : Fin 2) ∈ gather_S50x4096_S128x1_S128x4096_1_0_n_n_0_1_14096.sKept :=
      (GatherDims.mem_sKept _ _).mpr ⟨by show (1 : Fin 2) ∉ [0]; decide, List.not_mem_nil⟩
    rw [hs, GatherDims.batchCoord_eq_zero _ _ _ List.not_mem_nil]
    unfold GatherDims.offCoord
    rw [dif_pos hk]
    simp only [Nat.zero_add]
    rfl

/-- The queue weights viewed as 50 classes of 4096, at `(g, k)`: the flat weight at row `g · 4096 + k`. -/
theorem qwView_apply (a4 : FVec Ideal S204800x1 .f32) (h : S204800x1.ShapeCasts S50x4096) (g : Fin 50) (k : Fin 4096) :
    shapeCast S50x4096 a4 h (ix2 g k) = a4 (ix2 (Cert.Contrast.col g k) 0) :=
  shapeCast_apply a4 h _ _ (by
    rw [Shape.rowMajor_val_two, Shape.rowMajor_val_two]
    show (g.val * 4096 + k.val) * 1 + 0 = g.val * 4096 + k.val
    omega)

/-- The gathered weights at `(i, k)`, for a label that is class `g`: the queue weight of row `k` of class `g`. -/
theorem qwTab_apply (a4 : FVec Ideal S204800x1 .f32) (a5 : IVec S128 32) (g : Fin 50) (i : Fin 128) (k : Fin 4096)
    (h : a5 (ix1 i) = BitVec.ofNat 32 g.val) :
    Term.qwTab (F := Ideal) a4 a5 (ix2 i k) = a4 (ix2 (Cert.Contrast.col g k) 0) := by
  unfold Term.qwTab
  dsimp only
  rw [gather_row_apply]
  have hrow : (⟨min (Term.startCol a5 (ix2 i 0)).toInt.toNat 49, by omega⟩ : Fin 50) = g := by
    refine Fin.ext ?_
    show min (Term.startCol a5 (ix2 i 0)).toInt.toNat 49 = g.val
    rw [startCol_apply a5 g.val g.isLt i h, toInt_ofNat_class g.val g.isLt, Int.toNat_natCast]
    have := g.isLt
    omega
  rw [hrow]
  exact qwView_apply a4 _ g k

/-! ## The whole tail -/

/-- Everything after the launch is the loss the kernel's way, over the launch's two results read by coordinates. -/
theorem tail_eq_lossK (v18 a2 : FVec Ideal S128x1 .f32) (a4 : FVec Ideal S204800x1 .f32) (a5 : IVec S128 32)
    (dpA : FVec Ideal S2x128x1 .f32) (spA : FVec Ideal S2x128x4096 .f32)
    (cls : Fin 128 → Fin 50) (hcls : ∀ i, a5 (ix1 i) = BitVec.ofNat 32 (cls i).val) :
    Term.tail (F := Ideal) v18 a2 a4 a5 dpA spA
      = fun _ => Cert.Contrast.lossK (fun i => v18 (ix2 i 0)) (fun i => a2 (ix2 i 0)) (fun r => a4 (ix2 r 0))
          (fun p i => dpA (ix3 p i 0)) (fun p i k => spA (ix3 p i k)) cls := by
  funext j
  unfold Term.tail
  rw [fin_apply]
  unfold Cert.Contrast.lossK
  refine congrArg (fun s => Ideal.div s Cert.Contrast.nB) (Finset.sum_congr rfl fun i _ => ?_)
  refine congrArg (fun s => Ideal.div s Cert.Contrast.nQ) ?_
  rw [posCol_apply, denomCol_apply]
  unfold Cert.Contrast.emaK Cert.Contrast.posK Cert.Contrast.denomK Cert.Contrast.sposK
  refine congrArg (fun s => a2 (ix2 i 0) * Cert.Contrast.negLog (v18 (ix2 i 0))
    (v18 (ix2 i 0) + dpA (ix3 0 i 0) + dpA (ix3 1 i 0)) + s) (Finset.sum_congr rfl fun k _ => ?_)
  rw [sposTab_apply, qwTab_apply a4 a5 (cls i) i k (hcls i)]

end Cert.KernelIdeal.KerValue

end
-- ==== Proof.RefTerm.lean ====
/-
  The reference program's result as a pure function of its six arguments.

  Every definition composes the program's own operation functions in the program's order, one `let` per
  operation, under the program's own names for the shape relations. `fnorm` is a row's division by the larger of
  its Euclidean length and 1e-12; `lpos` the row-wise inner product of the two normalised inputs; `colClass` the
  class of each queue row, the floor of its index over 4096 as the program's integer operations compute it;
  `tail` everything after, cut into stages: the exponentiated similarities, the 0/1 class mask, the denominator,
  the masked positive sum, the twin term, and the two closing means.
-/
import proofs.«406886_j65506841198977_2_alg».proof.ReferenceIdeal

noncomputable section

namespace Cert.ReferenceIdeal.Term

open Cert.ReferenceIdeal Idealize.ShloMosaic

variable {F : FTy → Type} [FloatOps F] [Facts]
open Facts₀ Facts

/-- Operations %0–%7 over %arg0 (and %8–%15 over %arg1): `a / max (sqrt (∑ a², axis 1)) 1e-12`. -/
def fnorm (a : FVec F S128x128 .f32) : FVec F S128x128 .f32 :=
  let v0 : FVec F S128x128 .f32 := mulf a a
  let cst : FVec F S_ .f32 := constant S_ .f32 0x00000000#32
  let v1 : FVec F S128 .f32 := (fun x v => Host.reduceAdd x v reducesTo_S128x128_S128_d1 h_S_) v0 cst
  let v2 : FVec F S128x1 .f32 := broadcastInDim S128x1 ![0] bcast_S128_S128x1_0 v1
  let v3 : FVec F S128x1 .f32 := Host.sqrt v2
  let cst_0 : FVec F S_ .f32 := constant S_ .f32 0x2B8CBCCC#32
  let v4 : FVec F S128x1 .f32 := broadcastInDim S128x1 ![] bcast_S_S128x1 cst_0
  let v5 : FVec F S128x1 .f32 := maximumf v3 v4
  let v6 : FVec F S128x128 .f32 := broadcastInDim S128x128 ![0, 1] bcast_S128x1_S128x128_0_1 v5
  Host.divf a v6

/-- Operations %16–%17: the row sums of the product of the two normalised inputs. -/
def lpos (a0 a1 : FVec F S128x128 .f32) : FVec F S128 .f32 :=
  let v7 : FVec F S128x128 .f32 := fnorm a0
  let v15 : FVec F S128x128 .f32 := fnorm a1
  let v16 : FVec F S128x128 .f32 := mulf v7 v15
  let cst_3 : FVec F S_ .f32 := constant S_ .f32 0x00000000#32
  (fun x v => Host.reduceAdd x v reducesTo_S128x128_S128_d1 h_S_) v16 cst_3

/-- Operations %25, %c and the call of @floor_divide (with @_where's select last) = %26. -/
def colClass : IVec S204800 32 :=
  let v25 : IVec S204800 32 := iotaInDim S204800 32 0
  let c : IVec S_ 32 := constantI S_ 32 4096#32
  let f0 : IVec S_ 32 := id c
  let f1 : IVec S204800 32 := broadcastInDim S204800 ![] bcast_S_S204800 f0
  let f2 : IVec S204800 32 := Host.divsi v25 f1
  let f3 : IVec S204800 32 := signi v25
  let f4 : IVec S_ 32 := signi f0
  let f5 : IVec S204800 32 := broadcastInDim S204800 ![] bcast_S_S204800 f4
  let f6 : IVec S204800 1 := cmpi .ne f3 f5
  let f7 : IVec S204800 32 := broadcastInDim S204800 ![] bcast_S_S204800 f0
  let f8 : IVec S204800 32 := Host.remsi v25 f7
  let fc : IVec S_ 32 := constantI S_ 32 0#32
  let f9 : IVec S204800 32 := broadcastInDim S204800 ![] bcast_S_S204800 fc
  let f10 : IVec S204800 1 := cmpi .ne f8 f9
  let f11 : IVec S204800 1 := andi f6 f10
  let fc_0 : IVec S_ 32 := constantI S_ 32 1#32
  let f12 : IVec S204800 32 := broadcastInDim S204800 ![] bcast_S_S204800 fc_0
  let f13 : IVec S204800 32 := subi f2 f12
  select f11 f13 f2

/-- Operations %20–%24: `exp ((v7 · a3ᵀ) / ½)`. -/
def sim (v7 : FVec F S128x128 .f32) (a3 : FVec F S204800x128 .f32) : FVec F S128x204800 .f32 :=
  let v20 : FVec F S128x204800 .f32 := (transpose S128x204800 [1, 0] · transposes_S204800x128_S128x204800_1_0) a3
  let v21 : FVec F S128x204800 .f32 := (fun l r => Host.dotGeneral dot_S128x128_S128x204800_S128x204800_1_0_0_1_n_n none l r) v7 v20
  let cst_4 : FVec F S_ .f32 := constant S_ .f32 0x3F000000#32
  let v22 : FVec F S128x204800 .f32 := broadcastInDim S128x204800 ![] bcast_S_S128x204800 cst_4
  let v23 : FVec F S128x204800 .f32 := Host.divf v21 v22
  Host.exp v23

/-- Operations %26–%32: 1 where the queue row's class is the sample's label, 0 elsewhere. -/
def mask (a5 : IVec S128 32) : FVec F S128x204800 .f32 :=
  let v26 : IVec S204800 32 := colClass
  let v27 : IVec S1x204800 32 := broadcastInDim S1x204800 ![1] bcast_S204800_S1x204800_1 v26
  let v28 : IVec S128x1 32 := broadcastInDim S128x1 ![0] bcast_S128_S128x1_0 a5
  let v29 : IVec S128x204800 32 := broadcastInDim S128x204800 ![0, 1] bcast_S1x204800_S128x204800_0_1 v27
  let v30 : IVec S128x204800 32 := broadcastInDim S128x204800 ![0, 1] bcast_S128x1_S128x204800_0_1 v28
  let v31 : IVec S128x204800 1 := cmpi .eq v29 v30
  uitofp .f32 v31

/-- Operations %cst_5, %33, %34: the twin similarity plus the row sums of the similarities. -/
def denom (v17 : FVec F S128 .f32) (v24 : FVec F S128x204800 .f32) : FVec F S128 .f32 :=
  let cst_5 : FVec F S_ .f32 := constant S_ .f32 0x00000000#32
  let v33 : FVec F S128 .f32 := (fun x v => Host.reduceAdd x v reducesTo_S128x204800_S128_d1 h_S_) v24 cst_5
  addf v17 v33

/-- Operations %35–%49: the row sums of `mask · (w ⊗ qw) · -log (sim / D + ε)`. -/
def pos (v24 : FVec F S128x204800 .f32) (v34 : FVec F S128 .f32) (v32 : FVec F S128x204800 .f32)
    (v18 : FVec F S128 .f32) (v19 : FVec F S204800 .f32) : FVec F S128 .f32 :=
  let v35 : FVec F S128x1 .f32 := broadcastInDim S128x1 ![0] bcast_S128_S128x1_0 v34
  let v36 : FVec F S128x204800 .f32 := broadcastInDim S128x204800 ![0, 1] bcast_S128x1_S128x204800_0_1 v35
  let v37 : FVec F S128x204800 .f32 := Host.divf v24 v36
  let cst_6 : FVec F S_ .f32 := constant S_ .f32 0x322BCC77#32
  let v38 : FVec F S128x204800 .f32 := broadcastInDim S128x204800 ![] bcast_S_S128x204800 cst_6
  let v39 : FVec F S128x204800 .f32 := addf v37 v38
  let v40 : FVec F S128x204800 .f32 := Host.log v39
  let v41 : FVec F S128x204800 .f32 := Host.negf v40
  let v42 : FVec F S128x1 .f32 := broadcastInDim S128x1 ![0] bcast_S128_S128x1_0 v18
  let v43 : FVec F S1x204800 .f32 := broadcastInDim S1x204800 ![1] bcast_S204800_S1x204800_1 v19
  let v44 : FVec F S128x204800 .f32 := broadcastInDim S128x204800 ![0, 1] bcast_S128x1_S128x204800_0_1 v42
  let v45 : FVec F S128x204800 .f32 := broadcastInDim S128x204800 ![0, 1] bcast_S1x204800_S128x204800_0_1 v43
  let v46 : FVec F S128x204800 .f32 := mulf v44 v45
  let v47 : FVec F S128x204800 .f32 := mulf v32 v46
  let v48 : FVec F S128x204800 .f32 := mulf v47 v41
  let cst_7 : FVec F S_ .f32 := constant S_ .f32 0x00000000#32
  (fun x v => Host.reduceAdd x v reducesTo_S128x204800_S128_d1 h_S_) v48 cst_7

/-- Operations %50–%55: `w · -log (lp / D + ε)`. -/
def ema (v17 v34 v18 : FVec F S128 .f32) : FVec F S128 .f32 :=
  let v50 : FVec F S128 .f32 := Host.divf v17 v34
  let cst_8 : FVec F S_ .f32 := constant S_ .f32 0x322BCC77#32
  let v51 : FVec F S128 .f32 := broadcastInDim S128 ![] bcast_S_S128 cst_8
  let v52 : FVec F S128 .f32 := addf v50 v51
  let v53 : FVec F S128 .f32 := Host.log v52
  let v54 : FVec F S128 .f32 := Host.negf v53
  mulf v18 v54

/-- Operations %56–%60: the sum of the two terms over 4097, summed over the samples, over 128. -/
def fin (v55 v49 : FVec F S128 .f32) : FVec F S_ .f32 :=
  let v56 : FVec F S128 .f32 := addf v55 v49
  let cst_9 : FVec F S_ .f32 := constant S_ .f32 0x45800800#32
  let v57 : FVec F S128 .f32 := broadcastInDim S128 ![] bcast_S_S128 cst_9
  let v58 : FVec F S128 .f32 := Host.divf v56 v57
  let cst_10 : FVec F S_ .f32 := constant S_ .f32 0x00000000#32
  let v59 : FVec F S_ .f32 := (fun x v => Host.reduceAdd x v reducesTo_S128_S_d0 h_S_) v58 cst_10
  let cst_11 : FVec F S_ .f32 := constant S_ .f32 0x43000000#32
  Host.divf v59 cst_11

/-- Operations %18–%60 over the normalised first input %7 and the twin similarity %17. -/
def tail (v7 : FVec F S128x128 .f32) (v17 : FVec F S128 .f32) (a2 : FVec F S128x1 .f32) (a3 : FVec F S204800x128 .f32)
    (a4 : FVec F S204800x1 .f32) (a5 : IVec S128 32) : FVec F S_ .f32 :=
  let v18 : FVec F S128 .f32 := shapeCast S128 a2 shapeCasts_S128x1_S128
  let v19 : FVec F S204800 .f32 := shapeCast S204800 a4 shapeCasts_S204800x1_S204800
  let v24 : FVec F S128x204800 .f32 := sim v7 a3
  let v32 : FVec F S128x204800 .f32 := mask a5
  let v34 : FVec F S128 .f32 := denom v17 v24
  let v49 : FVec F S128 .f32 := pos v24 v34 v32 v18 v19
  let v55 : FVec F S128 .f32 := ema v17 v34 v18
  fin v55 v49

/-- The whole program: %60 over the six arguments. -/
def out (a0 a1 : FVec F S128x128 .f32) (a2 : FVec F S128x1 .f32) (a3 : FVec F S204800x128 .f32)
    (a4 : FVec F S204800x1 .f32) (a5 : IVec S128 32) : FVec F S_ .f32 :=
  tail (fnorm a0) (lpos a0 a1) a2 a3 a4 a5

end Cert.ReferenceIdeal.Term

end
-- ==== Proof.RefRun.lean ====
/-
  The reference program's run, read back as a fold.

  @main is a straight line of ninety-one tensor operations once its one call is replaced by the callee's body:
  the floor division of the row index by 4096 is sixteen operations (the divisor converted and broadcast, the
  truncating quotient, the two signs and their comparison, the remainder and its comparison with zero, the
  conjunction, the quotient less one) followed by the selection between the two quotients, which is the body of the
  function the floor division itself calls. Each of those seventeen writes a buffer of its own, named in the call's
  record; the selection's buffer is the call's result.

  A straight line of such operations, run from any memory whose counters are zero, terminates, and leaves every
  buffer at the fold of the operations' results over the launch contents. At the result buffer that fold is the
  composed term of the six arguments' contents; at each argument's buffer it is what the launch put there, since
  no operation writes an argument.
-/
import proofs.«406886_j65506841198977_2_alg».proof.Proof.Gen.ReferenceIdeal
import Idealize.ShloMosaic.Lib.StableHlo.Run
import proofs.«406886_j65506841198977_2_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-one operations in order, the floor division's seventeen in the place of its call: each over the
    buffers of the call's record, its first argument the row index, its second the constant 4096. -/
abbrev ops : List (HloOp τ sig (Elt F)) :=
  [ StableHlo.binary main_arg0 main_arg0 main_v0 (mulf : (⟨S128x128, .f32⟩ : BufTy).Contents (Elt F) → (⟨S128x128, .f32⟩ : BufTy).Contents (Elt F) → (⟨S128x128, .f32⟩ : BufTy).Contents (Elt F)),
    StableHlo.nullary main_cst (constant S_ .f32 0x00000000#32),
    StableHlo.binary main_v0 main_cst main_v1 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v1 main_v2 (broadcastInDim S128x1 ![0] bcast_S128_S128x1_0 : (⟨S128, .f32⟩ : BufTy).Contents (Elt F) → (⟨S128x1, .f32⟩ : BufTy).Contents (Elt F)),
    StableHlo.unary main_v2 main_v3 (Host.sqrt : (⟨S128x1, .f32⟩ : BufTy).Contents (Elt F) → (⟨S128x1, .f32⟩ : BufTy).Contents (Elt F)),
    StableHlo.nullary main_cst_0 (constant S_ .f32 0x2B8CBCCC#32),
    StableHlo.unary main_cst_0 main_v4 (broadcastInDim S128x1 ![] bcast_S_S128x1 : (⟨S_, .f32⟩ : BufTy).Contents (Elt F) → (⟨S128x1, .f32⟩ : BufTy).Contents (Elt F)),
    StableHlo.binary main_v3 main_v4 main_v5 (maximumf : (⟨S128x1, .f32⟩ : BufTy).Contents (Elt F) → (⟨S128x1, .f32⟩ : BufTy).Contents (Elt F) → (⟨S128x1, .f32⟩ : BufTy).Contents (Elt F)),
    StableHlo.unary main_v5 main_v6 (broadcastInDim S128x128 ![0, 1] bcast_S128x1_S128x128_0_1 : (⟨S128x1, .f32⟩ : BufTy).Contents (Elt F) → (⟨S128x128, .f32⟩ : BufTy).Contents (Elt F)),
    StableHlo.binary main_arg0 main_v6 main_v7 (Host.divf : (⟨S128x128, .f32⟩ : BufTy).Contents (Elt F) → (⟨S128x128, .f32⟩ : BufTy).Contents (Elt F) → (⟨S128x128, .f32⟩ : BufTy).Contents (Elt F)),
    StableHlo.binary main_arg1 main_arg1 main_v8 (mulf : (⟨S128x128, .f32⟩ : BufTy).Contents (Elt F) → (⟨S128x128, .f32⟩ : BufTy).Contents (Elt F) → (⟨S128x128, .f32⟩ : BufTy).Contents (Elt F)),
    StableHlo.nullary main_cst_1 (constant S_ .f32 0x00000000#32),
    StableHlo.binary main_v8 main_cst_1 main_v9 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v9 main_v10 (broadcastInDim S128x1 ![0] bcast_S128_S128x1_0 : (⟨S128, .f32⟩ : BufTy).Contents (Elt F) → (⟨S128x1, .f32⟩ : BufTy).Contents (Elt F)),
    StableHlo.unary main_v10 main_v11 (Host.sqrt : (⟨S128x1, .f32⟩ : BufTy).Contents (Elt F) → (⟨S128x1, .f32⟩ : BufTy).Contents (Elt F)),
    StableHlo.nullary main_cst_2 (constant S_ .f32 0x2B8CBCCC#32),
    StableHlo.unary main_cst_2 main_v12 (broadcastInDim S128x1 ![] bcast_S_S128x1 : (⟨S_, .f32⟩ : BufTy).Contents (Elt F) → (⟨S128x1, .f32⟩ : BufTy).Contents (Elt F)),
    StableHlo.binary main_v11 main_v12 main_v13 (maximumf : (⟨S128x1, .f32⟩ : BufTy).Contents (Elt F) → (⟨S128x1, .f32⟩ : BufTy).Contents (Elt F) → (⟨S128x1, .f32⟩ : BufTy).Contents (Elt F)),
    StableHlo.unary main_v13 main_v14 (broadcastInDim S128x128 ![0, 1] bcast_S128x1_S128x128_0_1 : (⟨S128x1, .f32⟩ : BufTy).Contents (Elt F) → (⟨S128x128, .f32⟩ : BufTy).Contents (Elt F)),
    StableHlo.binary main_arg1 main_v14 main_v15 (Host.divf : (⟨S128x128, .f32⟩ : BufTy).Contents (Elt F) → (⟨S128x128, .f32⟩ : BufTy).Contents (Elt F) → (⟨S128x128, .f32⟩ : BufTy).Contents (Elt F)),
    StableHlo.binary main_v7 main_v15 main_v16 (mulf : (⟨S128x128, .f32⟩ : BufTy).Contents (Elt F) → (⟨S128x128, .f32⟩ : BufTy).Contents (Elt F) → (⟨S128x128, .f32⟩ : BufTy).Contents (Elt F)),
    StableHlo.nullary main_cst_3 (constant S_ .f32 0x00000000#32),
    StableHlo.binary main_v16 main_cst_3 main_v17 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.reshape main_arg2 main_v18 rfl shapeCasts_S128x1_S128,
    StableHlo.reshape main_arg4 main_v19 rfl shapeCasts_S204800x1_S204800,
    StableHlo.unary main_arg3 main_v20 ((transpose S128x204800 [1, 0] · transposes_S204800x128_S128x204800_1_0) : (⟨S204800x128, .f32⟩ : BufTy).Contents (Elt F) → (⟨S128x204800, .f32⟩ : BufTy).Contents (Elt F)),
    StableHlo.binary main_v7 main_v20 main_v21 ((fun l r => Host.dotGeneral dot_S128x128_S128x204800_S128x204800_1_0_0_1_n_n none l r) : (⟨S128x128, .f32⟩ : BufTy).Contents (Elt F) → (⟨S128x204800, .f32⟩ : BufTy).Contents (Elt F) → (⟨S128x204800, .f32⟩ : BufTy).Contents (Elt F)),
    StableHlo.nullary main_cst_4 (constant S_ .f32 0x3F000000#32),
    StableHlo.unary main_cst_4 main_v22 (broadcastInDim S128x204800 ![] bcast_S_S128x204800 : (⟨S_, .f32⟩ : BufTy).Contents (Elt F) → (⟨S128x204800, .f32⟩ : BufTy).Contents (Elt F)),
    StableHlo.binary main_v21 main_v22 main_v23 (Host.divf : (⟨S128x204800, .f32⟩ : BufTy).Contents (Elt F) → (⟨S128x204800, .f32⟩ : BufTy).Contents (Elt F) → (⟨S128x204800, .f32⟩ : BufTy).Contents (Elt F)),
    StableHlo.unary main_v23 main_v24 (Host.exp : (⟨S128x204800, .f32⟩ : BufTy).Contents (Elt F) → (⟨S128x204800, .f32⟩ : BufTy).Contents (Elt F)),
    StableHlo.nullary main_v25 (iotaInDim S204800 32 0),
    StableHlo.nullary main_c (constantI S_ 32 4096#32),
    StableHlo.TRef.unary (.of main_c) main_call0.v0 id,
    StableHlo.TRef.unary main_call0.v0 main_call0.v1 (broadcastInDim S204800 ![] bcast_S_S204800),
    StableHlo.TRef.binary (.of main_v25) main_call0.v1 main_call0.v2 Host.divsi,
    StableHlo.TRef.unary (.of main_v25) main_call0.v3 signi,
    StableHlo.TRef.unary main_call0.v0 main_call0.v4 signi,
    StableHlo.TRef.unary main_call0.v4 main_call0.v5 (broadcastInDim S204800 ![] bcast_S_S204800),
    StableHlo.TRef.binary main_call0.v3 main_call0.v5 main_call0.v6 (cmpi .ne),
    StableHlo.TRef.unary main_call0.v0 main_call0.v7 (broadcastInDim S204800 ![] bcast_S_S204800),
    StableHlo.TRef.binary (.of main_v25) main_call0.v7 main_call0.v8 Host.remsi,
    StableHlo.TRef.nullary main_call0.c (constantI S_ 32 0#32),
    StableHlo.TRef.unary main_call0.c main_call0.v9 (broadcastInDim S204800 ![] bcast_S_S204800),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S204800 ![] bcast_S_S204800),
    StableHlo.TRef.binary main_call0.v2 main_call0.v12 main_call0.v13 subi,
    StableHlo.TRef.ternary main_call0.v11 main_call0.v13 main_call0.v2 main_call0.call0.v0 select,
    StableHlo.unary main_v26 main_v27 (broadcastInDim S1x204800 ![1] bcast_S204800_S1x204800_1 : (⟨S204800, .i32⟩ : BufTy).Contents (Elt F) → (⟨S1x204800, .i32⟩ : BufTy).Contents (Elt F)),
    StableHlo.unary main_arg5 main_v28 (broadcastInDim S128x1 ![0] bcast_S128_S128x1_0 : (⟨S128, .i32⟩ : BufTy).Contents (Elt F) → (⟨S128x1, .i32⟩ : BufTy).Contents (Elt F)),
    StableHlo.unary main_v27 main_v29 (broadcastInDim S128x204800 ![0, 1] bcast_S1x204800_S128x204800_0_1 : (⟨S1x204800, .i32⟩ : BufTy).Contents (Elt F) → (⟨S128x204800, .i32⟩ : BufTy).Contents (Elt F)),
    StableHlo.unary main_v28 main_v30 (broadcastInDim S128x204800 ![0, 1] bcast_S128x1_S128x204800_0_1 : (⟨S128x1, .i32⟩ : BufTy).Contents (Elt F) → (⟨S128x204800, .i32⟩ : BufTy).Contents (Elt F)),
    StableHlo.binary main_v29 main_v30 main_v31 (cmpi .eq : (⟨S128x204800, .i32⟩ : BufTy).Contents (Elt F) → (⟨S128x204800, .i32⟩ : BufTy).Contents (Elt F) → (⟨S128x204800, .i1⟩ : BufTy).Contents (Elt F)),
    StableHlo.unary main_v31 main_v32 (uitofp .f32 : (⟨S128x204800, .i1⟩ : BufTy).Contents (Elt F) → (⟨S128x204800, .f32⟩ : BufTy).Contents (Elt F)),
    StableHlo.nullary main_cst_5 (constant S_ .f32 0x00000000#32),
    StableHlo.binary main_v24 main_cst_5 main_v33 ((fun x v => Host.reduceAdd x v reducesTo_S128x204800_S128_d1 h_S_) : (⟨S128x204800, .f32⟩ : BufTy).Contents (Elt F) → (⟨S_, .f32⟩ : BufTy).Contents (Elt F) → (⟨S128, .f32⟩ : BufTy).Contents (Elt F)),
    StableHlo.binary main_v17 main_v33 main_v34 (addf : (⟨S128, .f32⟩ : BufTy).Contents (Elt F) → (⟨S128, .f32⟩ : BufTy).Contents (Elt F) → (⟨S128, .f32⟩ : BufTy).Contents (Elt F)),
    StableHlo.unary main_v34 main_v35 (broadcastInDim S128x1 ![0] bcast_S128_S128x1_0 : (⟨S128, .f32⟩ : BufTy).Contents (Elt F) → (⟨S128x1, .f32⟩ : BufTy).Contents (Elt F)),
    StableHlo.unary main_v35 main_v36 (broadcastInDim S128x204800 ![0, 1] bcast_S128x1_S128x204800_0_1 : (⟨S128x1, .f32⟩ : BufTy).Contents (Elt F) → (⟨S128x204800, .f32⟩ : BufTy).Contents (Elt F)),
    StableHlo.binary main_v24 main_v36 main_v37 (Host.divf : (⟨S128x204800, .f32⟩ : BufTy).Contents (Elt F) → (⟨S128x204800, .f32⟩ : BufTy).Contents (Elt F) → (⟨S128x204800, .f32⟩ : BufTy).Contents (Elt F)),
    StableHlo.nullary main_cst_6 (constant S_ .f32 0x322BCC77#32),
    StableHlo.unary main_cst_6 main_v38 (broadcastInDim S128x204800 ![] bcast_S_S128x204800 : (⟨S_, .f32⟩ : BufTy).Contents (Elt F) → (⟨S128x204800, .f32⟩ : BufTy).Contents (Elt F)),
    StableHlo.binary main_v37 main_v38 main_v39 (addf : (⟨S128x204800, .f32⟩ : BufTy).Contents (Elt F) → (⟨S128x204800, .f32⟩ : BufTy).Contents (Elt F) → (⟨S128x204800, .f32⟩ : BufTy).Contents (Elt F)),
    StableHlo.unary main_v39 main_v40 (Host.log : (⟨S128x204800, .f32⟩ : BufTy).Contents (Elt F) → (⟨S128x204800, .f32⟩ : BufTy).Contents (Elt F)),
    StableHlo.unary main_v40 main_v41 (Host.negf : (⟨S128x204800, .f32⟩ : BufTy).Contents (Elt F) → (⟨S128x204800, .f32⟩ : BufTy).Contents (Elt F)),
    StableHlo.unary main_v18 main_v42 (broadcastInDim S128x1 ![0] bcast_S128_S128x1_0 : (⟨S128, .f32⟩ : BufTy).Contents (Elt F) → (⟨S128x1, .f32⟩ : BufTy).Contents (Elt F)),
    StableHlo.unary main_v19 main_v43 (broadcastInDim S1x204800 ![1] bcast_S204800_S1x204800_1 : (⟨S204800, .f32⟩ : BufTy).Contents (Elt F) → (⟨S1x204800, .f32⟩ : BufTy).Contents (Elt F)),
    StableHlo.unary main_v42 main_v44 (broadcastInDim S128x204800 ![0, 1] bcast_S128x1_S128x204800_0_1 : (⟨S128x1, .f32⟩ : BufTy).Contents (Elt F) → (⟨S128x204800, .f32⟩ : BufTy).Contents (Elt F)),
    StableHlo.unary main_v43 main_v45 (broadcastInDim S128x204800 ![0, 1] bcast_S1x204800_S128x204800_0_1 : (⟨S1x204800, .f32⟩ : BufTy).Contents (Elt F) → (⟨S128x204800, .f32⟩ : BufTy).Contents (Elt F)),
    StableHlo.binary main_v44 main_v45 main_v46 (mulf : (⟨S128x204800, .f32⟩ : BufTy).Contents (Elt F) → (⟨S128x204800, .f32⟩ : BufTy).Contents (Elt F) → (⟨S128x204800, .f32⟩ : BufTy).Contents (Elt F)),
    StableHlo.binary main_v32 main_v46 main_v47 (mulf : (⟨S128x204800, .f32⟩ : BufTy).Contents (Elt F) → (⟨S128x204800, .f32⟩ : BufTy).Contents (Elt F) → (⟨S128x204800, .f32⟩ : BufTy).Contents (Elt F)),
    StableHlo.binary main_v47 main_v41 main_v48 (mulf : (⟨S128x204800, .f32⟩ : BufTy).Contents (Elt F) → (⟨S128x204800, .f32⟩ : BufTy).Contents (Elt F) → (⟨S128x204800, .f32⟩ : BufTy).Contents (Elt F)),
    StableHlo.nullary main_cst_7 (constant S_ .f32 0x00000000#32),
    StableHlo.binary main_v48 main_cst_7 main_v49 ((fun x v => Host.reduceAdd x v reducesTo_S128x204800_S128_d1 h_S_) : (⟨S128x204800, .f32⟩ : BufTy).Contents (Elt F) → (⟨S_, .f32⟩ : BufTy).Contents (Elt F) → (⟨S128, .f32⟩ : BufTy).Contents (Elt F)),
    StableHlo.binary main_v17 main_v34 main_v50 (Host.divf : (⟨S128, .f32⟩ : BufTy).Contents (Elt F) → (⟨S128, .f32⟩ : BufTy).Contents (Elt F) → (⟨S128, .f32⟩ : BufTy).Contents (Elt F)),
    StableHlo.nullary main_cst_8 (constant S_ .f32 0x322BCC77#32),
    StableHlo.unary main_cst_8 main_v51 (broadcastInDim S128 ![] bcast_S_S128 : (⟨S_, .f32⟩ : BufTy).Contents (Elt F) → (⟨S128, .f32⟩ : BufTy).Contents (Elt F)),
    StableHlo.binary main_v50 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.log : (⟨S128, .f32⟩ : BufTy).Contents (Elt F) → (⟨S128, .f32⟩ : BufTy).Contents (Elt F)),
    StableHlo.unary main_v53 main_v54 (Host.negf : (⟨S128, .f32⟩ : BufTy).Contents (Elt F) → (⟨S128, .f32⟩ : BufTy).Contents (Elt F)),
    StableHlo.binary main_v18 main_v54 main_v55 (mulf : (⟨S128, .f32⟩ : BufTy).Contents (Elt F) → (⟨S128, .f32⟩ : BufTy).Contents (Elt F) → (⟨S128, .f32⟩ : BufTy).Contents (Elt F)),
    StableHlo.binary main_v55 main_v49 main_v56 (addf : (⟨S128, .f32⟩ : BufTy).Contents (Elt F) → (⟨S128, .f32⟩ : BufTy).Contents (Elt F) → (⟨S128, .f32⟩ : BufTy).Contents (Elt F)),
    StableHlo.nullary main_cst_9 (constant S_ .f32 0x45800800#32),
    StableHlo.unary main_cst_9 main_v57 (broadcastInDim S128 ![] bcast_S_S128 : (⟨S_, .f32⟩ : BufTy).Contents (Elt F) → (⟨S128, .f32⟩ : BufTy).Contents (Elt F)),
    StableHlo.binary main_v56 main_v57 main_v58 (Host.divf : (⟨S128, .f32⟩ : BufTy).Contents (Elt F) → (⟨S128, .f32⟩ : BufTy).Contents (Elt F) → (⟨S128, .f32⟩ : BufTy).Contents (Elt F)),
    StableHlo.nullary main_cst_10 (constant S_ .f32 0x00000000#32),
    StableHlo.binary main_v58 main_cst_10 main_v59 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_11 (constant S_ .f32 0x43000000#32),
    StableHlo.binary main_v59 main_cst_11 main_v60 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: its two windows in order, the callee's definition unfolded at the call and the
    record at its fields; both sides are one chain of steps once sequencing is re-associated. -/
theorem main_eq (c : Dev nD) : main (F := F) c = seq ops := by
  simp only [main, main_part0, main_part1, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor buffers of the device only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., reshape_bufs_sub .., reshape_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., binary_bufs_sub .., binary_bufs_sub .., binary_bufs_sub .., nullary_bufs_sub .., binary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., binary_bufs_sub ..⟩

/-- From any memory with zero counters, for any float values: every weakly fair execution of @main terminates, and
    every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 16384 in
set_option maxHeartbeats 4000000 in
/-- The fold at the result buffer is the composed term: each operation's result at its own buffer is its function
    of its operands' contents, at any other buffer what was there; what is left is the term's own definition over the
    six arguments' contents. -/
theorem out_eq (V : Valuation τ sig (Elt F)) :
    after ops V (main_v60 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  show _ = _
  after_results_simp
  rfl

set_option maxRecDepth 16384 in
/-- No operation writes argument 0: the fold leaves it. -/
theorem arg0_eq (V : Valuation τ sig (Elt F)) :
    after ops V (main_arg0 : DevRef τ sig) = V (main_arg0 : DevRef τ sig) := by
  simp only [after_cons, after_nil]
  rfl

set_option maxRecDepth 16384 in
/-- No operation writes argument 1: the fold leaves it. -/
theorem arg1_eq (V : Valuation τ sig (Elt F)) :
    after ops V (main_arg1 : DevRef τ sig) = V (main_arg1 : DevRef τ sig) := by
  simp only [after_cons, after_nil]
  rfl

set_option maxRecDepth 16384 in
/-- No operation writes argument 2: the fold leaves it. -/
theorem arg2_eq (V : Valuation τ sig (Elt F)) :
    after ops V (main_arg2 : DevRef τ sig) = V (main_arg2 : DevRef τ sig) := by
  simp only [after_cons, after_nil]
  rfl

set_option maxRecDepth 16384 in
/-- No operation writes argument 3: the fold leaves it. -/
theorem arg3_eq (V : Valuation τ sig (Elt F)) :
    after ops V (main_arg3 : DevRef τ sig) = V (main_arg3 : DevRef τ sig) := by
  simp only [after_cons, after_nil]
  rfl

set_option maxRecDepth 16384 in
/-- No operation writes argument 4: the fold leaves it. -/
theorem arg4_eq (V : Valuation τ sig (Elt F)) :
    after ops V (main_arg4 : DevRef τ sig) = V (main_arg4 : DevRef τ sig) := by
  simp only [after_cons, after_nil]
  rfl

set_option maxRecDepth 16384 in
/-- No operation writes argument 5: the fold leaves it. -/
theorem arg5_eq (V : Valuation τ sig (Elt F)) :
    after ops V (main_arg5 : DevRef τ sig) = V (main_arg5 : DevRef τ sig) := by
  simp only [after_cons, after_nil]
  rfl

/-- From any memory with zero counters, for any float values: every weakly fair execution of @main terminates with
    the result buffer at the composed term of the six arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
          = Term.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v60).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_after m ρ)

end Cert.ReferenceIdeal.HandRun

end
-- ==== Proof.RefValue.lean ====
/-
  The reference program's result, read at the ideal values, is the group-contrast loss the reference's way.

  Each stage of the program is read at one index: the layout operations (broadcasts, the two reshapes, the
  transpose) name the operand's index; the matrix product is the sum over the one contracted axis; the row sums are
  sums over the dropped axis; the class of queue row `c` is `c / 4096`, so the mask is the indicator of "the row's
  class is the sample's label". The normalised first input and the twin similarity stay closed throughout.
-/
import proofs.«406886_j65506841198977_2_alg».proof.Proof.RefTerm
import proofs.«406886_j65506841198977_2_alg».proof.Proof.Gen.ReferenceIdeal
import proofs.«406886_j65506841198977_2_alg».proof.Proof.Contrast
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The layout operations at an index -/

section Layout
variable {α : Type}

/-- A scalar broadcast to any shape reads the scalar. -/
theorem bc_scalar {t : Shape} (h : S_.BroadcastsInDim t (![] : Fin 0 → Fin t.rank)) (x : S_.Idx → α) (j : t.Idx) :
    broadcastInDim t ![] h x j = x ix0 :=
  broadcastInDim_apply _ h x j ix0 fun a => a.elim0

/-- A vector made a column reads, at `(i, u)`, the vector at `i`. -/
theorem bc_col (h : S128.BroadcastsInDim S128x1 (![0] : Fin 1 → Fin S128x1.rank)) (x : S128.Idx → α) (i : Fin 128) (u : Fin 1) :
    broadcastInDim S128x1 ![0] h x (ix2 i u) = x (ix1 i) :=
  broadcastInDim_apply _ h x _ _ fun a => match a with | ⟨0, _⟩ => rfl

/-- A column spread over 204800 columns reads, at `(i, c)`, the column at `(i, 0)`. -/
theorem bc_col_wide (h : S128x1.BroadcastsInDim S128x204800 (![0, 1] : Fin 2 → Fin S128x204800.rank)) (x : S128x1.Idx → α)
    (i : Fin 128) (c : Fin 204800) :
    broadcastInDim S128x204800 ![0, 1] h x (ix2 i c) = x (ix2 i (0 : Fin 1)) :=
  broadcastInDim_apply _ h x _ _ fun a => match a with | ⟨0, _⟩ => rfl | ⟨1, _⟩ => rfl

/-- A vector made a row reads, at `(u, c)`, the vector at `c`. -/
theorem bc_row (h : S204800.BroadcastsInDim S1x204800 (![1] : Fin 1 → Fin S1x204800.rank)) (x : S204800.Idx → α)
    (u : Fin 1) (c : Fin 204800) :
    broadcastInDim S1x204800 ![1] h x (ix2 u c) = x (ix1 c) :=
  broadcastInDim_apply _ h x _ _ fun a => match a with | ⟨0, _⟩ => rfl

/-- A row spread over 128 rows reads, at `(i, c)`, the row at `(0, c)`. -/
theorem bc_row_tall (h : S1x204800.BroadcastsInDim S128x204800 (![0, 1] : Fin 2 → Fin S128x204800.rank)) (x : S1x204800.Idx → α)
    (i : Fin 128) (c : Fin 204800) :
    broadcastInDim S128x204800 ![0, 1] h x (ix2 i c) = x (ix2 (0 : Fin 1) c) :=
  broadcastInDim_apply _ h x _ _ fun a => match a with | ⟨0, _⟩ => rfl | ⟨1, _⟩ => rfl

/-- A column of `a` rows cast to a vector reads, at `i`, the column at `(i, 0)`. -/
theorem cast_col {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ## The class of a queue row: `c / 4096` -/

section ColClass

/-- A word below 204800 is nonnegative as a signed word. -/
theorem msb_small (n : ℕ) (hn : n < 204800) : (BitVec.ofNat 32 n).msb = false := by
  rw [BitVec.msb_eq_decide]
  simp only [BitVec.toNat_ofNat, decide_eq_false_iff_not, not_le]
  omega

/-- 4096 is not a corner of the signed division. -/
theorem not_corner (x : BitVec 32) : ¬ IntOp.SDivCorner x 4096#32 := by
  rintro (h | ⟨_, h⟩)
  · exact absurd h (by decide)
  · exact absurd h (by decide)

/-- The signed quotient of such a word by 4096 is the natural quotient. -/
theorem divsi_small (n : ℕ) (hn : n < 204800) :
    IntOp.divsi .host (BitVec.ofNat 32 n) 4096#32 = BitVec.ofNat 32 (n / 4096) := by
  unfold IntOp.divsi
  rw [if_neg (not_corner _), BitVec.sdiv_eq, msb_small n hn, show (4096#32).msb = false from by decide]
  apply BitVec.eq_of_toNat_eq
  have h4 : (4096#32).toNat = 4096 := rfl
  rw [BitVec.udiv_eq, BitVec.toNat_udiv, h4, BitVec.toNat_ofNat, BitVec.toNat_ofNat]
  omega

/-- The signed remainder of the zero word by 4096 is zero. -/
theorem remsi_zero : IntOp.remsi .host (BitVec.ofNat 32 0) 4096#32 = 0#32 := by
  unfold IntOp.remsi
  rw [if_neg (not_corner _)]
  decide

/-- The sign word of a positive word below 204800 is 1. -/
theorem sign_pos (n : ℕ) (hn : n < 204800) (h0 : n ≠ 0) :
    (if BitVec.ofNat 32 n = 0 then (0 : BitVec 32) else if (BitVec.ofNat 32 n).msb then -1 else 1) = 1#32 := by
  have hne : BitVec.ofNat 32 n ≠ 0 := by
    intro h
    have h1 := congrArg BitVec.toNat h
    have h2 : (0 : BitVec 32).toNat = 0 := rfl
    rw [BitVec.toNat_ofNat, h2] at h1
    omega
  rw [if_neg hne, msb_small n hn]
  rfl

/-- THE CLASS OF ROW `c`: the program's floor division of the row's index by 4096 is `c / 4096`. Where the index
    is positive its sign word is the divisor's, so the first test of the correction fails; at index 0 the
    remainder is 0, so the second does: the select keeps the quotient. -/
theorem colClass_apply (c : Fin 204800) : Term.colClass (ix1 c) = BitVec.ofNat 32 (c.val / 4096) := by
  have hq := divsi_small c.val c.isLt
  have b1 : broadcastInDim S204800 ![] bcast_S_S204800 (id (constantI S_ 32 4096#32)) (ix1 c) = 4096#32 := bc_scalar _ _ _
  have b2 : broadcastInDim S204800 ![] bcast_S_S204800 (signi (id (constantI S_ 32 4096#32))) (ix1 c) = 1#32 :=
    (bc_scalar _ _ _).trans (by decide)
  have b3 : broadcastInDim S204800 ![] bcast_S_S204800 (constantI S_ 32 0#32) (ix1 c) = 0#32 := bc_scalar _ _ _
  have b4 : broadcastInDim S204800 ![] bcast_S_S204800 (constantI S_ 32 1#32) (ix1 c) = 1#32 := bc_scalar _ _ _
  show Scalar.select (IntOp.andi
      (IntOp.cmpi .ne (if BitVec.ofNat 32 c.val = 0 then (0 : BitVec 32) else if (BitVec.ofNat 32 c.val).msb then -1 else 1)
        (broadcastInDim S204800 ![] bcast_S_S204800 (signi (id (constantI S_ 32 4096#32))) (ix1 c)))
      (IntOp.cmpi .ne (IntOp.remsi .host (BitVec.ofNat 32 c.val) (broadcastInDim S204800 ![] bcast_S_S204800 (id (constantI S_ 32 4096#32)) (ix1 c)))
        (broadcastInDim S204800 ![] bcast_S_S204800 (constantI S_ 32 0#32) (ix1 c))))
    (IntOp.subi (IntOp.divsi .host (BitVec.ofNat 32 c.val) (broadcastInDim S204800 ![] bcast_S_S204800 (id (constantI S_ 32 4096#32)) (ix1 c)))
      (broadcastInDim S204800 ![] bcast_S_S204800 (constantI S_ 32 1#32) (ix1 c)))
    (IntOp.divsi .host (BitVec.ofNat 32 c.val) (broadcastInDim S204800 ![] bcast_S_S204800 (id (constantI S_ 32 4096#32)) (ix1 c))) = _
  rw [b1, b2, b3, b4, hq]
  by_cases h0 : c.val = 0
  · rw [h0, remsi_zero]
    rfl
  · rw [sign_pos c.val c.isLt h0]
    have h11 : IntOp.cmpi .ne (1#32) (1#32) = 0#1 := by decide
    rw [h11]
    show Scalar.select (0#1 &&& _) _ _ = _
    rw [BitVec.zero_and, select_zero]

end ColClass

/-! ## The similarities: `exp ((x_i · q_c) / ½)` -/

section Sim

/-- The matrix product's dimension numbers: it contracts the left operand's axis 1 with the right operand's axis 0. -/
abbrev DD : DotDims S128x128 S128x204800 S128x204800 := dot_S128x128_S128x204800_S128x204800_1_0_0_1_n_n

theorem lhs_0 (j : S128x204800.Idx) (k : DD.contr.Idx) : (DD.lhsIdx j k 0).val = (j 0).val := rfl
theorem lhs_1 (j : S128x204800.Idx) (k : DD.contr.Idx) : (DD.lhsIdx j k 1).val = (k ⟨0, by decide⟩).val :=
  DotDims.lhsIdx_val_of_single (d := DD) (cl := 1) rfl j k
theorem rhs_0 (j : S128x204800.Idx) (k : DD.contr.Idx) : (DD.rhsIdx j k 0).val = (k ⟨0, by decide⟩).val :=
  DotDims.rhsIdx_val_of_single (d := DD) (cr := 0) rfl j k
theorem rhs_1 (j : S128x204800.Idx) (k : DD.contr.Idx) : (DD.rhsIdx j k 1).val = (j 1).val := rfl

/-- The product at `(i, c)` is the sum over the contracted coordinate. -/
theorem dot_apply (l : FVec Ideal S128x128 .f32) (r : FVec Ideal S128x204800 .f32) (i : Fin 128) (c : Fin 204800) :
    Host.dotGeneral (F := Ideal) DD none l r (ix2 i c) = ∑ d : Fin 128, l (ix2 i d) * r (ix2 d c) := by
  show FloatOps.dotGeneral DD none .single l r (ix2 i c) = _
  rw [Ideal.dotGeneral_apply]
  refine (Equiv.sum_comp (contrEquiv1 DD 128 rfl rfl).symm _).symm.trans ?_
  refine Finset.sum_congr rfl fun d _ => ?_
  have hl : DD.lhsIdx (ix2 i c) ((contrEquiv1 DD 128 rfl rfl).symm d) = ix2 i d := funext fun a => Fin.ext (match a with
    | ⟨0, _⟩ => lhs_0 _ _
    | ⟨1, _⟩ => (lhs_1 _ _).trans (contrEquiv1_symm_val DD 128 rfl rfl d))
  have hr : DD.rhsIdx (ix2 i c) ((contrEquiv1 DD 128 rfl rfl).symm d) = ix2 d c := funext fun a => Fin.ext (match a with
    | ⟨0, _⟩ => (rhs_0 _ _).trans (contrEquiv1_symm_val DD 128 rfl rfl d)
    | ⟨1, _⟩ => rhs_1 _ _)
  rw [hl, hr]

/-- THE SIMILARITY STAGE at `(i, c)`. -/
theorem sim_apply (v7 : FVec Ideal S128x128 .f32) (a3 : FVec Ideal S204800x128 .f32) (i : Fin 128) (c : Fin 204800) :
    Term.sim (F := Ideal) v7 a3 (ix2 i c) = Cert.Contrast.simR (fun i d => v7 (ix2 i d)) (fun r d => a3 (ix2 r d)) i c := by
  show Ideal.exp (Ideal.div (Host.dotGeneral (F := Ideal) DD none v7
        (transpose S128x204800 [1, 0] a3 transposes_S204800x128_S128x204800_1_0) (ix2 i c))
      (broadcastInDim S128x204800 ![] bcast_S_S128x204800 (constant (F := Ideal) S_ .f32 0x3F000000#32) (ix2 i c))) = _
  rw [dot_apply, bc_scalar]
  have ht : ∀ d : Fin 128, transpose S128x204800 [1, 0] a3 transposes_S204800x128_S128x204800_1_0 (ix2 d c) = a3 (ix2 c d) :=
    fun d => transpose_ix2_apply a3 _ d c
  simp only [ht]
  rfl

end Sim

/-! ## The mask: 1 where the row's class is the sample's label -/

section Mask

/-- An equality test of two words, converted to a float, is the indicator of the equality. -/
theorem uitofp_cmpi_eq (x y : BitVec 32) :
    (FloatOps.uitofp (F := Ideal) .f32 (IntOp.cmpi .eq x y) : Ideal .f32) = if x = y then 1 else 0 := by
  show (((IntOp.cmpi .eq x y).toNat : ℝ) : EReal) = _
  by_cases h : x = y
  · have e : IntOp.cmpi .eq x y = 1#1 := by subst h; simp [IntOp.cmpi]
    rw [if_pos h, e]
    simp
  · have hb : (x == y) = false := beq_eq_false_iff_ne.mpr h
    have e : IntOp.cmpi .eq x y = 0#1 := by
      show BitVec.ofBool (x == y) = 0#1
      rw [hb]
      rfl
    rw [if_neg h, e]
    simp

/-- THE MASK STAGE at `(i, c)`. -/
theorem mask_apply (a5 : IVec S128 32) (i : Fin 128) (c : Fin 204800) :
    Term.mask (F := Ideal) a5 (ix2 i c) = Cert.Contrast.maskR (fun i => a5 (ix1 i)) i c := by
  show FloatOps.uitofp (F := Ideal) .f32 (IntOp.cmpi .eq
      (broadcastInDim S128x204800 ![0, 1] bcast_S1x204800_S128x204800_0_1
        (broadcastInDim S1x204800 ![1] bcast_S204800_S1x204800_1 Term.colClass) (ix2 i c))
      (broadcastInDim S128x204800 ![0, 1] bcast_S128x1_S128x204800_0_1
        (broadcastInDim S128x1 ![0] bcast_S128_S128x1_0 a5) (ix2 i c))) = _
  rw [bc_row_tall, bc_row, bc_col_wide, bc_col, colClass_apply, uitofp_cmpi_eq]
  rfl

end Mask

/-! ## The sums -/

section Sums

/-- A row sum of a 128 × 204800 array from the zero word is the sum over the row. -/
theorem rowsum_wide (x : FVec Ideal S128x204800 .f32) (i : Fin 128) :
    Host.reduceAdd (F := Ideal) x (constant (F := Ideal) S_ .f32 0x00000000#32) reducesTo_S128x204800_S128_d1 h_S_ (ix1 i)
      = ∑ c : Fin 204800, x (ix2 i c) := by
  have hR : S128x204800.Reduces [1] S128 := by decide
  show Ideal.hostReduceAdd reducesTo_S128x204800_S128_d1 x (Ideal.ofBits .f32 0x00000000#32) (ix1 i) = _
  rw [Ideal.hostReduceAdd_single _ hR, Ideal.ofBits_zero_f32, zero_add]
  exact Finset.sum_congr rfl fun c _ => congrArg x (funext fun a => Fin.ext (match a with | ⟨0, _⟩ => rfl | ⟨1, _⟩ => rfl))

/-- The sum of a vector of 128 to a scalar from the zero word is the sum over its entries. -/
theorem total_sum (x : FVec Ideal S128 .f32) :
    Host.reduceAdd (F := Ideal) x (constant (F := Ideal) S_ .f32 0x00000000#32) reducesTo_S128_S_d0 h_S_ ix0
      = ∑ i : Fin 128, x (ix1 i) := by
  show Ideal.hostReduceAdd reducesTo_S128_S_d0 x (Ideal.ofBits .f32 0x00000000#32) ix0 = _
  rw [Ideal.hostReduceAdd_total _ (fun b => b.elim0), Ideal.ofBits_zero_f32, zero_add]
  exact (Equiv.sum_comp (idxEquiv1 (n := 128)).symm x).symm

end Sums

/-! ## The stages after the similarities -/

section Stages

/-- THE DENOMINATOR at `i`. -/
theorem denom_apply (v17 : FVec Ideal S128 .f32) (v24 : FVec Ideal S128x204800 .f32) (i : Fin 128) :
    Term.denom (F := Ideal) v17 v24 (ix1 i) = v17 (ix1 i) + ∑ c : Fin 204800, v24 (ix2 i c) := by
  show v17 (ix1 i) + Host.reduceAdd (F := Ideal) v24 (constant (F := Ideal) S_ .f32 0x00000000#32)
    reducesTo_S128x204800_S128_d1 h_S_ (ix1 i) = _
  rw [rowsum_wide]

/-- The denominator over the similarities is the reference's. -/
theorem denom_sim_apply (v7 : FVec Ideal S128x128 .f32) (a3 : FVec Ideal S204800x128 .f32) (v17 : FVec Ideal S128 .f32) (i : Fin 128) :
    Term.denom (F := Ideal) v17 (Term.sim (F := Ideal) v7 a3) (ix1 i)
      = Cert.Contrast.denomR (fun i d => v7 (ix2 i d)) (fun r d => a3 (ix2 r d)) (fun i => v17 (ix1 i)) i := by
  rw [denom_apply]
  simp only [sim_apply]
  rfl

/-- THE POSITIVE SUM at `i`. -/
theorem pos_apply (v24 : FVec Ideal S128x204800 .f32) (v34 : FVec Ideal S128 .f32) (v32 : FVec Ideal S128x204800 .f32)
    (v18 : FVec Ideal S128 .f32) (v19 : FVec Ideal S204800 .f32) (i : Fin 128) :
    Term.pos (F := Ideal) v24 v34 v32 v18 v19 (ix1 i)
      = ∑ c : Fin 204800, (v32 (ix2 i c) * (v18 (ix1 i) * v19 (ix1 c))) * Cert.Contrast.negLog (v24 (ix2 i c)) (v34 (ix1 i)) := by
  refine (rowsum_wide _ i).trans (Finset.sum_congr rfl fun c _ => ?_)
  show (v32 (ix2 i c)
        * (broadcastInDim S128x204800 ![0, 1] bcast_S128x1_S128x204800_0_1 (broadcastInDim S128x1 ![0] bcast_S128_S128x1_0 v18) (ix2 i c)
          * broadcastInDim S128x204800 ![0, 1] bcast_S1x204800_S128x204800_0_1 (broadcastInDim S1x204800 ![1] bcast_S204800_S1x204800_1 v19) (ix2 i c)))
      * -(Ideal.log (Ideal.div (v24 (ix2 i c))
            (broadcastInDim S128x204800 ![0, 1] bcast_S128x1_S128x204800_0_1 (broadcastInDim S128x1 ![0] bcast_S128_S128x1_0 v34) (ix2 i c))
          + broadcastInDim S128x204800 ![] bcast_S_S128x204800 (constant (F := Ideal) S_ .f32 0x322BCC77#32) (ix2 i c))) = _
  rw [bc_col_wide, bc_col, bc_row_tall, bc_row, bc_col_wide, bc_col, bc_scalar]
  rfl

/-- THE TWIN TERM at `i`. -/
theorem ema_apply (v17 v34 v18 : FVec Ideal S128 .f32) (i : Fin 128) :
    Term.ema (F := Ideal) v17 v34 v18 (ix1 i) = v18 (ix1 i) * Cert.Contrast.negLog (v17 (ix1 i)) (v34 (ix1 i)) := by
  show v18 (ix1 i) * -(Ideal.log (Ideal.div (v17 (ix1 i)) (v34 (ix1 i))
    + broadcastInDim S128 ![] bcast_S_S128 (constant (F := Ideal) S_ .f32 0x322BCC77#32) (ix1 i))) = _
  rw [bc_scalar]
  rfl

/-- THE CLOSING MEANS. -/
theorem fin_apply (v55 v49 : FVec Ideal S128 .f32) :
    Term.fin (F := Ideal) v55 v49
      = fun _ => Ideal.div (∑ i : Fin 128, Ideal.div (v55 (ix1 i) + v49 (ix1 i)) Cert.Contrast.nQ) Cert.Contrast.nB := by
  funext j
  obtain rfl := eq_ix0 j
  show Ideal.div (Host.reduceAdd (F := Ideal)
      (Host.divf (F := Ideal) (addf v55 v49) (broadcastInDim S128 ![] bcast_S_S128 (constant (F := Ideal) S_ .f32 0x45800800#32)))
      (constant (F := Ideal) S_ .f32 0x00000000#32) reducesTo_S128_S_d0 h_S_ ix0)
    (constant (F := Ideal) S_ .f32 0x43000000#32 ix0) = _
  rw [total_sum]
  refine congrArg (fun s => Ideal.div s Cert.Contrast.nB) (Finset.sum_congr rfl fun i _ => ?_)
  show Ideal.div (v55 (ix1 i) + v49 (ix1 i))
    (broadcastInDim S128 ![] bcast_S_S128 (constant (F := Ideal) S_ .f32 0x45800800#32) (ix1 i)) = _
  rw [bc_scalar]
  rfl

end Stages

/-! ## The whole program -/

/-- THE REFERENCE'S RESULT is the loss the reference's way, over the normalised first input, the queue, the twin
    similarity, the two weight columns and the labels. -/
theorem out_eq_lossR (a0 a1 : FVec Ideal S128x128 .f32) (a2 : FVec Ideal S128x1 .f32) (a3 : FVec Ideal S204800x128 .f32)
    (a4 : FVec Ideal S204800x1 .f32) (a5 : IVec S128 32) :
    Term.out (F := Ideal) a0 a1 a2 a3 a4 a5 = fun _ => Cert.Contrast.lossR (fun i d => Term.fnorm a0 (ix2 i d))
      (fun r d => a3 (ix2 r d)) (fun i => Term.lpos a0 a1 (ix1 i)) (fun i => a2 (ix2 i 0)) (fun r => a4 (ix2 r 0))
      (fun i => a5 (ix1 i)) := by
  show Term.fin (F := Ideal)
      (Term.ema (F := Ideal) (Term.lpos a0 a1) (Term.denom (F := Ideal) (Term.lpos a0 a1) (Term.sim (F := Ideal) (Term.fnorm a0) a3))
        (shapeCast S128 a2 shapeCasts_S128x1_S128))
      (Term.pos (F := Ideal) (Term.sim (F := Ideal) (Term.fnorm a0) a3)
        (Term.denom (F := Ideal) (Term.lpos a0 a1) (Term.sim (F := Ideal) (Term.fnorm a0) a3)) (Term.mask (F := Ideal) a5)
        (shapeCast S128 a2 shapeCasts_S128x1_S128) (shapeCast S204800 a4 shapeCasts_S204800x1_S204800)) = _
  rw [fin_apply]
  funext _
  refine congrArg (fun s => Ideal.div s Cert.Contrast.nB) (Finset.sum_congr rfl fun i _ => ?_)
  rw [ema_apply, pos_apply, denom_sim_apply, cast_col]
  simp only [cast_col, mask_apply, sim_apply]
  rfl

end Cert.ReferenceIdeal.RefValue

end
-- ==== Proof.lean ====
/-
  The certificate of the pseudo-group contrast loss: the kernel program (one fused pass over the 50 queue classes on a
  2 × 25 grid, then a short host epilogue) against the plain reference (one 128 × 204800 similarity matrix and a 0/1
  class mask), on the extended reals.

  Both programs normalise the two activation matrices by the same chain of host operations and take the same raw
  twin similarity, so those enter as one shared function. What remains is the loss as a function of the normalised
  activations x, the queue q, the twin similarity lp, the weights w, qw and the labels: the reference's way
  (Contrast.lossR) and the kernel's way over what its launch leaves (Contrast.lossK over Contrast.dpSpec / spSpec).
  The two agree when every label is one of the 50 classes (ContrastBridge), which the precondition says (LabelRange);
  the kernel's launch leaves those partial sums (KerRegion), its host epilogue is lossK of them (KerRun, KerValue), and
  the reference's run ends at lossR (RefRun, RefValue).
-/
import proofs.«406886_j65506841198977_2_alg».proof.Defs
import proofs.«406886_j65506841198977_2_alg».proof.Proof.Gen.Kernel
import proofs.«406886_j65506841198977_2_alg».proof.Proof.Gen.Kernel.Skeleton
import proofs.«406886_j65506841198977_2_alg».proof.Proof.Gen.Kernel.Launch
import proofs.«406886_j65506841198977_2_alg».proof.Proof.Gen.Kernel.Points
import proofs.«406886_j65506841198977_2_alg».proof.Proof.Gen.Kernel.Frame
import proofs.«406886_j65506841198977_2_alg».proof.Proof.Gen.KernelIdeal
import proofs.«406886_j65506841198977_2_alg».proof.Proof.Gen.KernelIdeal.Skeleton
import proofs.«406886_j65506841198977_2_alg».proof.Proof.Gen.KernelIdeal.Launch
import proofs.«406886_j65506841198977_2_alg».proof.Proof.Gen.KernelIdeal.Points
import proofs.«406886_j65506841198977_2_alg».proof.Proof.Gen.KernelIdeal.Frame
import proofs.«406886_j65506841198977_2_alg».proof.Proof.Gen.ReferenceIdeal
import proofs.«406886_j65506841198977_2_alg».proof.Proof.Gen.Pre_finite_inputs
import proofs.«406886_j65506841198977_2_alg».proof.Proof.ContrastBridge
import proofs.«406886_j65506841198977_2_alg».proof.Proof.LabelRange
import proofs.«406886_j65506841198977_2_alg».proof.Proof.KerRegion
import proofs.«406886_j65506841198977_2_alg».proof.Proof.KerRun
import proofs.«406886_j65506841198977_2_alg».proof.Proof.KerValue
import proofs.«406886_j65506841198977_2_alg».proof.Proof.RefRun
import proofs.«406886_j65506841198977_2_alg».proof.Proof.RefValue
import Idealize.ShloMosaic.Adequacy
import Idealize.ShloMosaic.Init

noncomputable section

namespace Cert.Proof

open Idealize.ShloMosaic Idealize.ShloMosaic.ValueIdx Idealize.SL.Sem

/-- The row normalisation is one function in both programs. -/
theorem fnorm_eq (a : FVec Ideal Cert.KernelIdeal.S128x128 .f32) :
    Cert.KernelIdeal.Term.fnorm (F := Ideal) a = Cert.ReferenceIdeal.Term.fnorm (F := Ideal) a := rfl

/-- The twin similarity: the kernel program's column at row i is the reference's vector at i. -/
theorem lpos_eq (a0 a1 : FVec Ideal Cert.KernelIdeal.S128x128 .f32) (i : Fin 128) :
    Cert.KernelIdeal.Term.lposCol (F := Ideal) a0 a1 (ix2 i 0) = Cert.ReferenceIdeal.Term.lpos (F := Ideal) a0 a1 (ix1 i) := by
  rw [Cert.KernelIdeal.KerValue.lposCol_apply]
  rfl

/-- Under the precondition the kernel program's result is the reference's, as functions of the same arguments. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Term.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Term.tail (F := Ideal)
        (Cert.KernelIdeal.Term.lposCol
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (Cert.KernelIdeal.Region.dpArr m c) (Cert.KernelIdeal.Region.spArr m c) := by
  obtain ⟨cls, hcls⟩ := Cert.LabelRange.cls_of_pre m hpre c
  rw [Cert.ReferenceIdeal.RefValue.out_eq_lossR, Cert.KernelIdeal.KerValue.tail_eq_lossK _ _ _ _ _ _ cls hcls]
  funext _
  symm
  have hx : ∀ (i d : Fin 128), Cert.KernelIdeal.Region.xArr m c (ix2 i d)
      = Cert.ReferenceIdeal.Term.fnorm (F := Ideal) (m ((c.tc : Thread Cert.KernelIdeal.nD Cert.KernelIdeal.τ).loc Cert.KernelIdeal.main_arg0)) (ix2 i d) := by
    intro i d
    show Cert.KernelIdeal.Gen.V m c Cert.KernelIdeal.main_v7 (ix2 i d) = _
    rw [Cert.KernelIdeal.HandRun.v7_eq, fnorm_eq]
  have hq : ∀ (r : Fin 204800) (d : Fin 128), Cert.KernelIdeal.Region.qArr m c (ix2 r d)
      = m ((c.tc : Thread Cert.KernelIdeal.nD Cert.KernelIdeal.τ).loc Cert.KernelIdeal.main_arg3) (ix2 r d) := by
    intro r d
    show Cert.KernelIdeal.Gen.V m c Cert.KernelIdeal.main_arg3 (ix2 r d) = _
    rw [Cert.KernelIdeal.HandRun.arg3_eq]
  have hl : ∀ i : Fin 128, Cert.KernelIdeal.Region.labArr m c (ix2 i 0)
      = m ((c.tc : Thread Cert.KernelIdeal.nD Cert.KernelIdeal.τ).loc Cert.KernelIdeal.main_arg5) (ix1 i) := by
    intro i
    show Cert.KernelIdeal.Gen.V m c Cert.KernelIdeal.main_v19 (ix2 i 0) = _
    rw [Cert.KernelIdeal.HandRun.v19_eq, Cert.KernelIdeal.KerValue.lab2_apply]
  have hlp : (fun i : Fin 128 => Cert.KernelIdeal.Term.lposCol (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix2 i 0))
      = fun i : Fin 128 => Cert.ReferenceIdeal.Term.lpos (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix1 i) :=
    funext fun i => lpos_eq _ _ i
  rw [hlp]
  refine Cert.Contrast.lossK_eq_lossR _ _ _ _ _ _ cls hcls _ _ ?_ ?_
  · intro p i
    rw [Cert.KernelIdeal.Region.dpArr_eq]
    simp only [hx, hq]
  · intro p i k
    rw [Cert.KernelIdeal.Region.spArr_eq]
    simp only [hx, hq, hl]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end, the kernel program's at its epilogue over what the launch left and the reference's at its own
    term of arguments that agree: one value, by `result_eq`. -/
theorem algebraic : Cert.algebraic_KernelIdeal_ReferenceIdeal := by
  intro m ρ m' ρ' hpre hagree
  refine ⟨_, Cert.KernelIdeal.HandRun.run (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
